-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S524288 : Shape := ⟨1, ![524288]⟩
abbrev S100000x512 : Shape := ⟨2, ![100000, 512]⟩
abbrev S512x512 : Shape := ⟨2, ![512, 512]⟩
abbrev S512 : Shape := ⟨1, ![512]⟩
abbrev S1x512 : Shape := ⟨2, ![1, 512]⟩
abbrev S1 : Shape := ⟨1, ![1]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S1x512 : S_.BroadcastsInDim S1x512 (![] : Fin 0 → Fin S1x512.rank)
  reducesTo_S1x512_S_d0_1 : S1x512.ReducesTo [0, 1] S_
  bcast_S_S1 : S_.BroadcastsInDim S1 (![] : Fin 0 → Fin S1.rank)
  reducesTo_S1_S_d0 : S1.ReducesTo [0] S_
  bcast_S_S524288 : S_.BroadcastsInDim S524288 (![] : Fin 0 → Fin S524288.rank)
  reducesTo_S524288_S_d0 : S524288.ReducesTo [0] S_

variable [Facts]

def fn_part2 {F : FTy → Type} [FloatOps F] (main_arg0 : IVec S524288 32) (main_v33 : IVec S_ 1) : IVec S_ 1 :=
  let main_c_12 : IVec S_ 32 := constantI S_ 32 4294867296#32
  let main_v34 : IVec S524288 32 := broadcastInDim S524288 ![] bcast_S_S524288 main_c_12
  let main_v35 : IVec S524288 1 := cmpi .sge main_arg0 main_v34
  let main_c_13 : IVec S_ 32 := constantI S_ 32 100000#32
  let main_v36 : IVec S524288 32 := broadcastInDim S524288 ![] bcast_S_S524288 main_c_13
  let main_v37 : IVec S524288 1 := cmpi .slt main_arg0 main_v36
  let main_v38 : IVec S524288 1 := andi main_v35 main_v37
  let main_c_14 : IVec S_ 1 := constantI S_ 1 1#1
  let main_v39 : IVec S_ 1 := (fun x v => Host.reduce IntOp.andi x v reducesTo_S524288_S_d0 h_S_) main_v38 main_c_14
  let main_v40 : IVec S_ 1 := andi main_v33 main_v39
  main_v40

def fn_part1 {F : FTy → Type} [FloatOps F] (main_arg0 : IVec S524288 32) (main_arg6 : FVec F S512 .f32) (main_arg7 : FVec F S1x512 .f32) (main_arg8 : FVec F S1 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512 .f32 := Host.absf main_arg6
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S1x512 .f32 := Host.absf main_arg7
  let main_cst_8 : FVec F S_ .f32 := constant S_ .f32 0x7F800000#32
  let main_v25 : FVec F S1x512 .f32 := broadcastInDim S1x512 ![] bcast_S_S1x512 main_cst_8
  let main_v26 : IVec S1x512 1 := cmpf .olt main_v24 main_v25
  let main_c_9 : IVec S_ 1 := constantI S_ 1 1#1
  let main_v27 : IVec S_ 1 := (fun x v => Host.reduce IntOp.andi x v reducesTo_S1x512_S_d0_1 h_S_) main_v26 main_c_9
  let main_v28 : IVec S_ 1 := andi main_v23 main_v27
  let main_v29 : FVec F S1 .f32 := Host.absf main_arg8
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  fn_part2 (F := F) main_arg0 main_v33

def fn {F : FTy → Type} [FloatOps F] (main_arg0 : IVec S524288 32) (main_arg1 : IVec S524288 32) (main_arg2 : FVec F S100000x512 .f32) (main_arg3 : FVec F S512x512 .f32) (main_arg4 : FVec F S512 .f32) (main_arg5 : FVec F S512 .f32) (main_arg6 : FVec F S512 .f32) (main_arg7 : FVec F S1x512 .f32) (main_arg8 : FVec F S1 .f32) : IVec S_ 1 :=
  let main_v0 : FVec F S100000x512 .f32 := Host.absf main_arg2
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S512x512 .f32 := Host.absf main_arg3
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512 .f32 := Host.absf main_arg4
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512 .f32 := Host.absf main_arg5
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg0 main_arg6 main_arg7 main_arg8 main_v13 main_v16
-- ==== Kernel.lean ====
abbrev S524288 : Shape := ⟨1, ![524288]⟩
abbrev S100000x512 : Shape := ⟨2, ![100000, 512]⟩
abbrev S512x512 : Shape := ⟨2, ![512, 512]⟩
abbrev S512 : Shape := ⟨1, ![512]⟩
abbrev S1x512 : Shape := ⟨2, ![1, 512]⟩
abbrev S1 : Shape := ⟨1, ![1]⟩
abbrev S_ : Shape := ⟨0, ![]⟩
abbrev S524288x1 : Shape := ⟨2, ![524288, 1]⟩
abbrev S1x1 : Shape := ⟨2, ![1, 1]⟩
abbrev S524288x512 : Shape := ⟨2, ![524288, 512]⟩
abbrev S4096x512 : Shape := ⟨2, ![4096, 512]⟩
abbrev S4096 : Shape := ⟨1, ![4096]⟩
abbrev S4096x1 : Shape := ⟨2, ![4096, 1]⟩
abbrev S512x1 : Shape := ⟨2, ![512, 1]⟩

abbrev nBuf : Space → Nat
  | .hbm => 54
  | .vmem => 8
  | .smem => 0
  | _ => 0

abbrev bufTy : (tb : Table) → Fin (tcTables nBuf tb) → BufTy
  | .hbm, ⟨0, _⟩ => ⟨S524288, .i32⟩
  | .hbm, ⟨1, _⟩ => ⟨S524288, .i32⟩
  | .hbm, ⟨2, _⟩ => ⟨S100000x512, .f32⟩
  | .hbm, ⟨3, _⟩ => ⟨S512x512, .f32⟩
  | .hbm, ⟨4, _⟩ => ⟨S512, .f32⟩
  | .hbm, ⟨5, _⟩ => ⟨S512, .f32⟩
  | .hbm, ⟨6, _⟩ => ⟨S512, .f32⟩
  | .hbm, ⟨7, _⟩ => ⟨S1x512, .f32⟩
  | .hbm, ⟨8, _⟩ => ⟨S1, .f32⟩
  | .hbm, ⟨9, _⟩ => ⟨S_, .i32⟩
  | .hbm, ⟨10, _⟩ => ⟨S524288, .i32⟩
  | .hbm, ⟨11, _⟩ => ⟨S524288, .i1⟩
  | .hbm, ⟨12, _⟩ => ⟨S_, .i32⟩
  | .hbm, ⟨13, _⟩ => ⟨S524288, .i32⟩
  | .hbm, ⟨14, _⟩ => ⟨S524288, .i32⟩
  | .hbm, ⟨15, _⟩ => ⟨S524288, .i32⟩
  | .hbm, ⟨16, _⟩ => ⟨S524288x1, .i32⟩
  | .hbm, ⟨17, _⟩ => ⟨S1, .i32⟩
  | .hbm, ⟨18, _⟩ => ⟨S_, .i32⟩
  | .hbm, ⟨19, _⟩ => ⟨S524288x1, .i32⟩
  | .hbm, ⟨20, _⟩ => ⟨S524288x1, .i1⟩
  | .hbm, ⟨21, _⟩ => ⟨S1x1, .i32⟩
  | .hbm, ⟨22, _⟩ => ⟨S524288x1, .i32⟩
  | .hbm, ⟨23, _⟩ => ⟨S524288x1, .i1⟩
  | .hbm, ⟨24, _⟩ => ⟨S524288x1, .i1⟩
  | .hbm, ⟨25, _⟩ => ⟨S_, .i1⟩
  | .hbm, ⟨26, _⟩ => ⟨S524288, .i1⟩
  | .hbm, ⟨27, _⟩ => ⟨S524288x512, .f32⟩
  | .hbm, ⟨28, _⟩ => ⟨S524288x512, .i1⟩
  | .hbm, ⟨29, _⟩ => ⟨S_, .f32⟩
  | .hbm, ⟨30, _⟩ => ⟨S524288x512, .f32⟩
  | .hbm, ⟨31, _⟩ => ⟨S524288x512, .f32⟩
  | .hbm, ⟨32, _⟩ => ⟨S_, .f32⟩
  | .hbm, ⟨33, _⟩ => ⟨S4096x512, .f32⟩
  | .hbm, ⟨34, _⟩ => ⟨S524288x1, .i32⟩
  | .hbm, ⟨35, _⟩ => ⟨S4096x512, .f32⟩
  | .hbm, ⟨36, _⟩ => ⟨S_, .f32⟩
  | .hbm, ⟨37, _⟩ => ⟨S524288, .f32⟩
  | .hbm, ⟨38, _⟩ => ⟨S_, .f32⟩
  | .hbm, ⟨39, _⟩ => ⟨S4096, .f32⟩
  | .hbm, ⟨40, _⟩ => ⟨S524288x1, .i32⟩
  | .hbm, ⟨41, _⟩ => ⟨S4096, .f32⟩
  | .hbm, ⟨42, _⟩ => ⟨S_, .f32⟩
  | .hbm, ⟨43, _⟩ => ⟨S4096, .f32⟩
  | .hbm, ⟨44, _⟩ => ⟨S4096, .f32⟩
  | .hbm, ⟨45, _⟩ => ⟨S4096x1, .f32⟩
  | .hbm, ⟨46, _⟩ => ⟨S4096x512, .f32⟩
  | .hbm, ⟨47, _⟩ => ⟨S4096x512, .f32⟩
  | .hbm, ⟨48, _⟩ => ⟨S4096x512, .bf16⟩
  | .hbm, ⟨49, _⟩ => ⟨S512x512, .f32⟩
  | .hbm, ⟨50, _⟩ => ⟨S512x512, .bf16⟩
  | .hbm, ⟨51, _⟩ => ⟨S512x1, .f32⟩
  | .hbm, ⟨52, _⟩ => ⟨S512x1, .bf16⟩
  | .hbm, ⟨53, _⟩ => ⟨S4096x1, .f32⟩
  | .local _ .vmem, ⟨0, _⟩ => ⟨S4096x512, .bf16⟩
  | .local _ .vmem, ⟨1, _⟩ => ⟨S512x512, .bf16⟩
  | .local _ .vmem, ⟨2, _⟩ => ⟨S512, .f32⟩
  | .local _ .vmem, ⟨3, _⟩ => ⟨S512, .f32⟩
  | .local _ .vmem, ⟨4, _⟩ => ⟨S512, .f32⟩
  | .local _ .vmem, ⟨5, _⟩ => ⟨S512x1, .bf16⟩
  | .local _ .vmem, ⟨6, _⟩ => ⟨S1, .f32⟩
  | .local _ .vmem, ⟨7, _⟩ => ⟨S4096x1, .f32⟩
  | _, _ => ⟨S524288, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_call0_c : Ref sig .tc := ⟨.hbm, 9, rfl⟩
abbrev main_call0_v0 : Ref sig .tc := ⟨.hbm, 10, rfl⟩
abbrev main_call0_v1 : Ref sig .tc := ⟨.hbm, 11, rfl⟩
abbrev main_call0_c_0 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_c_1 : Ref sig .tc := ⟨.hbm, 17, rfl⟩
abbrev main_call0_c_2 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_3 : Ref sig .tc := ⟨.hbm, 25, rfl⟩
abbrev main_call0_v12 : Ref sig .tc := ⟨.hbm, 26, rfl⟩
abbrev main_call0_v13 : Ref sig .tc := ⟨.hbm, 27, rfl⟩
abbrev main_call0_v14 : Ref sig .tc := ⟨.hbm, 28, rfl⟩
abbrev main_call0_cst : Ref sig .tc := ⟨.hbm, 29, rfl⟩
abbrev main_call0_v15 : Ref sig .tc := ⟨.hbm, 30, rfl⟩
abbrev main_v0 : Ref sig .tc := ⟨.hbm, 31, rfl⟩
abbrev main_cst : Ref sig .tc := ⟨.hbm, 32, rfl⟩
abbrev main_v1 : Ref sig .tc := ⟨.hbm, 33, rfl⟩
abbrev main_v2 : Ref sig .tc := ⟨.hbm, 34, rfl⟩
abbrev main_v3 : Ref sig .tc := ⟨.hbm, 35, rfl⟩
abbrev main_cst_0 : Ref sig .tc := ⟨.hbm, 36, rfl⟩
abbrev main_v4 : Ref sig .tc := ⟨.hbm, 37, rfl⟩
abbrev main_cst_1 : Ref sig .tc := ⟨.hbm, 38, rfl⟩
abbrev main_v5 : Ref sig .tc := ⟨.hbm, 39, rfl⟩
abbrev main_v6 : Ref sig .tc := ⟨.hbm, 40, rfl⟩
abbrev main_v7 : Ref sig .tc := ⟨.hbm, 41, rfl⟩
abbrev main_cst_2 : Ref sig .tc := ⟨.hbm, 42, rfl⟩
abbrev main_v8 : Ref sig .tc := ⟨.hbm, 43, rfl⟩
abbrev main_v9 : Ref sig .tc := ⟨.hbm, 44, rfl⟩
abbrev main_v10 : Ref sig .tc := ⟨.hbm, 45, rfl⟩
abbrev main_v11 : Ref sig .tc := ⟨.hbm, 46, rfl⟩
abbrev main_v12 : Ref sig .tc := ⟨.hbm, 47, rfl⟩
abbrev main_v13 : Ref sig .tc := ⟨.hbm, 48, rfl⟩
abbrev main_v14 : Ref sig .tc := ⟨.hbm, 49, rfl⟩
abbrev main_v15 : Ref sig .tc := ⟨.hbm, 50, rfl⟩
abbrev main_v16 : Ref sig .tc := ⟨.hbm, 51, rfl⟩
abbrev main_v17 : Ref sig .tc := ⟨.hbm, 52, rfl⟩
abbrev main_v18 : Ref sig .tc := ⟨.hbm, 53, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S4096x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4096x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

class Facts₀ : Prop where
  bcast_S_S524288 : S_.BroadcastsInDim S524288 (![] : Fin 0 → Fin S524288.rank)
  bcast_S524288_S524288x1_0 : S524288.BroadcastsInDim S524288x1 (![0] : Fin 1 → Fin S524288x1.rank)
  bcast_S_S524288x1 : S_.BroadcastsInDim S524288x1 (![] : Fin 0 → Fin S524288x1.rank)
  bcast_S1_S1x1_1 : S1.BroadcastsInDim S1x1 (![1] : Fin 1 → Fin S1x1.rank)
  bcast_S1x1_S524288x1_0_1 : S1x1.BroadcastsInDim S524288x1 (![0, 1] : Fin 2 → Fin S524288x1.rank)
  reducesTo_S524288x1_S524288_d1 : S524288x1.ReducesTo [1] S524288
  h_S_ : 0 < S_.numel
  bcast_S524288_S524288x512_0 : S524288.BroadcastsInDim S524288x512 (![0] : Fin 1 → Fin S524288x512.rank)
  bcast_S_S524288x512 : S_.BroadcastsInDim S524288x512 (![] : Fin 0 → Fin S524288x512.rank)
  bcast_S_S4096x512 : S_.BroadcastsInDim S4096x512 (![] : Fin 0 → Fin S4096x512.rank)
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x512_0_1 : S4096x1.BroadcastsInDim S4096x512 (![0, 1] : Fin 2 → Fin S4096x512.rank)
  bitsLt_bf16_f32 : FTy.bits .bf16 < FTy.bits .f32
  transposes_S512x512_S512x512_1_0 : S512x512.Transposes [1, 0] S512x512
  transposes_S1x512_S512x1_1_0 : S1x512.Transposes [1, 0] S512x1
  inb_S4096x512_S4096x512_0_0 : ∀ a, (![0, 0] : Fin 2 → Nat) a + S4096x512.size a ≤ S4096x512.size a
  h_S4096x512 : 0 < S4096x512.numel
  shapeCasts_S4096x512_S4096x512 : S4096x512.ShapeCasts S4096x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S512_S512_0 : ∀ a, (![0] : Fin 1 → Nat) a + S512.size a ≤ S512.size a
  h_S512 : 0 < S512.numel
  shapeCasts_S512_S1x512 : S512.ShapeCasts S1x512
  broadcasts_S1x512_S4096x512 : S1x512.Broadcasts S4096x512
  reduces_S4096x512_S512 : S4096x512.Reduces [0] S512
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S1_S1_0 : ∀ a, (![0] : Fin 1 → Nat) a + S1.size a ≤ S1.size a
  h_S1 : 0 < S1.numel
  shapeCasts_S1_S1x1 : S1.ShapeCasts S1x1
  broadcasts_S1x1_S4096x1 : S1x1.Broadcasts S4096x1
  inb_S4096x1_S4096x1_0_0 : ∀ a, (![0, 0] : Fin 2 → Nat) a + S4096x1.size a ≤ S4096x1.size a
  h_S4096x1 : 0 < S4096x1.numel
  gather_S100000x512_S524288x1_S524288x512_1_0_n_n_0_1_1512_wf : GatherDims.WF S100000x512 S524288x1 S524288x512 [1] [0] [] [0] [] 1 ![1, 512]
  scatter_S4096x512_S524288x1_S524288x512_1_0_0_1_wf : ScatterDims.WF S4096x512 S524288x1 S524288x512 [1] [0] [0] 1
  scatter_S4096_S524288x1_S524288_n_0_0_1_wf : ScatterDims.WF S4096 S524288x1 S524288 [] [0] [0] 1
  dot_S4096x512_S512x512_S4096x512_1_0_0_1_n_n_wf : DotDims.WF S4096x512 S512x512 S4096x512 [1] [0] [0] [1] [] []
  dot_S4096x512_S512x1_S4096x1_1_0_0_1_n_n_wf : DotDims.WF S4096x512 S512x1 S4096x1 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S4096x512.size a ≤ S4096x512.size a
  hwx0_0 : ∀ i : grid0.Coords, EltTy.bits .bf16 = 32 ∨ (Rect.block (s := S4096x512) S4096x512.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .bf16 = 32 ∨ (Rect.block (s := S512x512) S512x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512.size a ≤ S512.size a
  hwx0_2 : ∀ i : grid0.Coords, EltTy.bits .f32 = 32 ∨ (Rect.block (s := S512) S512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512.size a ≤ S512.size a
  hwx0_3 : ∀ i : grid0.Coords, EltTy.bits .f32 = 32 ∨ (Rect.block (s := S512) S512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512.size a ≤ S512.size a
  hwx0_4 : ∀ i : grid0.Coords, EltTy.bits .f32 = 32 ∨ (Rect.block (s := S512) S512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x1.size a ≤ S512x1.size a
  hwx0_5 : ∀ i : grid0.Coords, EltTy.bits .bf16 = 32 ∨ (Rect.block (s := S512x1) S512x1.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1.size a ≤ S1.size a
  hwx0_6 : ∀ i : grid0.Coords, EltTy.bits .f32 = 32 ∨ (Rect.block (s := S1) S1.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S4096x1.size a ≤ S4096x1.size a
  hwx0_7 : ∀ i : grid0.Coords, EltTy.bits .f32 = 32 ∨ (Rect.block (s := S4096x1) S4096x1.size (cc0_transform_7 i) (hinb0_7 i)).WholeWords (EltTy.packing .f32)

variable [Facts₀]

def gather_S100000x512_S524288x1_S524288x512_1_0_n_n_0_1_1512 : GatherDims S100000x512 S524288x1 S524288x512 where
  offsetDims := [1]
  collapsedSliceDims := [0]
  operandBatchingDims := []
  startIndicesBatchingDims := []
  startIndexMap := [0]
  indexVectorDim := 1
  sliceSizes := ![1, 512]
  wf := gather_S100000x512_S524288x1_S524288x512_1_0_n_n_0_1_1512_wf
def scatter_S4096x512_S524288x1_S524288x512_1_0_0_1 : ScatterDims S4096x512 S524288x1 S524288x512 where
  updateWindowDims := [1]
  insertedWindowDims := [0]
  scatterDimsToOperandDims := [0]
  indexVectorDim := 1
  wf := scatter_S4096x512_S524288x1_S524288x512_1_0_0_1_wf
def scatter_S4096_S524288x1_S524288_n_0_0_1 : ScatterDims S4096 S524288x1 S524288 where
  updateWindowDims := []
  insertedWindowDims := [0]
  scatterDimsToOperandDims := [0]
  indexVectorDim := 1
  wf := scatter_S4096_S524288x1_S524288_n_0_0_1_wf
def dot_S4096x512_S512x512_S4096x512_1_0_0_1_n_n : DotDims S4096x512 S512x512 S4096x512 where
  lhsContracting := [1]
  rhsContracting := [0]
  lhsNonContracting := [0]
  rhsNonContracting := [1]
  lhsBatch := []
  rhsBatch := []
  wf := dot_S4096x512_S512x512_S4096x512_1_0_0_1_n_n_wf
def dot_S4096x512_S512x1_S4096x1_1_0_0_1_n_n : DotDims S4096x512 S512x1 S4096x1 where
  lhsContracting := [1]
  rhsContracting := [0]
  lhsNonContracting := [0]
  rhsNonContracting := [1]
  lhsBatch := []
  rhsBatch := []
  wf := dot_S4096x512_S512x1_S4096x1_1_0_0_1_n_n_wf

abbrev win0_0 : Pipeline.Window sig grid0 :=
  Pipeline.Window.ofSpec (Memref.whole main_v13) S4096x512.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v15) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v17) S512x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg8) S1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v18) S4096x1.size cc0_transform_7 reads0_7 true true 1 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S524288 : Shape := ⟨1, ![524288]⟩
abbrev S100000x512 : Shape := ⟨2, ![100000, 512]⟩
abbrev S512x512 : Shape := ⟨2, ![512, 512]⟩
abbrev S512 : Shape := ⟨1, ![512]⟩
abbrev S1x512 : Shape := ⟨2, ![1, 512]⟩
abbrev S1 : Shape := ⟨1, ![1]⟩
abbrev S_ : Shape := ⟨0, ![]⟩
abbrev S524288x1 : Shape := ⟨2, ![524288, 1]⟩
abbrev S524288x512 : Shape := ⟨2, ![524288, 512]⟩
abbrev S4096x512 : Shape := ⟨2, ![4096, 512]⟩
abbrev S4096 : Shape := ⟨1, ![4096]⟩
abbrev S4096x1 : Shape := ⟨2, ![4096, 1]⟩
abbrev S512x1 : Shape := ⟨2, ![512, 1]⟩
abbrev S1x1 : Shape := ⟨2, ![1, 1]⟩

abbrev nBuf : Space → Nat
  | .hbm => 99
  | .vmem => 0
  | .smem => 0
  | _ => 0

abbrev bufTy : (tb : Table) → Fin (tcTables nBuf tb) → BufTy
  | .hbm, ⟨0, _⟩ => ⟨S524288, .i32⟩
  | .hbm, ⟨1, _⟩ => ⟨S524288, .i32⟩
  | .hbm, ⟨2, _⟩ => ⟨S100000x512, .f32⟩
  | .hbm, ⟨3, _⟩ => ⟨S512x512, .f32⟩
  | .hbm, ⟨4, _⟩ => ⟨S512, .f32⟩
  | .hbm, ⟨5, _⟩ => ⟨S512, .f32⟩
  | .hbm, ⟨6, _⟩ => ⟨S512, .f32⟩
  | .hbm, ⟨7, _⟩ => ⟨S1x512, .f32⟩
  | .hbm, ⟨8, _⟩ => ⟨S1, .f32⟩
  | .hbm, ⟨9, _⟩ => ⟨S_, .i32⟩
  | .hbm, ⟨10, _⟩ => ⟨S524288, .i32⟩
  | .hbm, ⟨11, _⟩ => ⟨S524288, .i1⟩
  | .hbm, ⟨12, _⟩ => ⟨S_, .i32⟩
  | .hbm, ⟨13, _⟩ => ⟨S524288, .i32⟩
  | .hbm, ⟨14, _⟩ => ⟨S524288, .i32⟩
  | .hbm, ⟨15, _⟩ => ⟨S524288, .i32⟩
  | .hbm, ⟨16, _⟩ => ⟨S524288x1, .i32⟩
  | .hbm, ⟨17, _⟩ => ⟨S524288x512, .f32⟩
  | .hbm, ⟨18, _⟩ => ⟨S_, .f32⟩
  | .hbm, ⟨19, _⟩ => ⟨S4096x512, .f32⟩
  | .hbm, ⟨20, _⟩ => ⟨S524288x1, .i32⟩
  | .hbm, ⟨21, _⟩ => ⟨S4096x512, .f32⟩
  | .hbm, ⟨22, _⟩ => ⟨S_, .f32⟩
  | .hbm, ⟨23, _⟩ => ⟨S524288, .f32⟩
  | .hbm, ⟨24, _⟩ => ⟨S_, .f32⟩
  | .hbm, ⟨25, _⟩ => ⟨S4096, .f32⟩
  | .hbm, ⟨26, _⟩ => ⟨S524288x1, .i32⟩
  | .hbm, ⟨27, _⟩ => ⟨S4096, .f32⟩
  | .hbm, ⟨28, _⟩ => ⟨S_, .f32⟩
  | .hbm, ⟨29, _⟩ => ⟨S4096, .f32⟩
  | .hbm, ⟨30, _⟩ => ⟨S4096, .f32⟩
  | .hbm, ⟨31, _⟩ => ⟨S4096x1, .f32⟩
  | .hbm, ⟨32, _⟩ => ⟨S4096x512, .f32⟩
  | .hbm, ⟨33, _⟩ => ⟨S4096x512, .f32⟩
  | .hbm, ⟨34, _⟩ => ⟨S512x512, .f32⟩
  | .hbm, ⟨35, _⟩ => ⟨S4096x512, .f32⟩
  | .hbm, ⟨36, _⟩ => ⟨S1x512, .f32⟩
  | .hbm, ⟨37, _⟩ => ⟨S4096x512, .f32⟩
  | .hbm, ⟨38, _⟩ => ⟨S4096x512, .f32⟩
  | .hbm, ⟨39, _⟩ => ⟨S_, .f32⟩
  | .hbm, ⟨40, _⟩ => ⟨S512, .f32⟩
  | .hbm, ⟨41, _⟩ => ⟨S_, .f32⟩
  | .hbm, ⟨42, _⟩ => ⟨S512, .f32⟩
  | .hbm, ⟨43, _⟩ => ⟨S512, .f32⟩
  | .hbm, ⟨44, _⟩ => ⟨S_, .i32⟩
  | .hbm, ⟨45, _⟩ => ⟨S_, .f32⟩
  | .hbm, ⟨46, _⟩ => ⟨S512, .f32⟩
  | .hbm, ⟨47, _⟩ => ⟨S1x512, .f32⟩
  | .hbm, ⟨48, _⟩ => ⟨S_, .f32⟩
  | .hbm, ⟨49, _⟩ => ⟨S1x512, .f32⟩
  | .hbm, ⟨50, _⟩ => ⟨S1x512, .f32⟩
  | .hbm, ⟨51, _⟩ => ⟨S4096x512, .f32⟩
  | .hbm, ⟨52, _⟩ => ⟨S4096x512, .f32⟩
  | .hbm, ⟨53, _⟩ => ⟨S4096x512, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S512, .f32⟩
  | .hbm, ⟨59, _⟩ => ⟨S512, .f32⟩
  | .hbm, ⟨60, _⟩ => ⟨S512, .f32⟩
  | .hbm, ⟨61, _⟩ => ⟨S_, .f32⟩
  | .hbm, ⟨62, _⟩ => ⟨S_, .i1⟩
  | .hbm, ⟨63, _⟩ => ⟨S_, .f32⟩
  | .hbm, ⟨64, _⟩ => ⟨S_, .f32⟩
  | .hbm, ⟨65, _⟩ => ⟨S512, .f32⟩
  | .hbm, ⟨66, _⟩ => ⟨S512, .f32⟩
  | .hbm, ⟨67, _⟩ => ⟨S1x512, .f32⟩
  | .hbm, ⟨68, _⟩ => ⟨S4096x512, .f32⟩
  | .hbm, ⟨69, _⟩ => ⟨S4096x512, .f32⟩
  | .hbm, ⟨70, _⟩ => ⟨S_, .f32⟩
  | .hbm, ⟨71, _⟩ => ⟨S512, .f32⟩
  | .hbm, ⟨72, _⟩ => ⟨S512, .f32⟩
  | .hbm, ⟨73, _⟩ => ⟨S512, .f32⟩
  | .hbm, ⟨74, _⟩ => ⟨S1x512, .f32⟩
  | .hbm, ⟨75, _⟩ => ⟨S4096x512, .f32⟩
  | .hbm, ⟨76, _⟩ => ⟨S4096x512, .f32⟩
  | .hbm, ⟨77, _⟩ => ⟨S1x512, .f32⟩
  | .hbm, ⟨78, _⟩ => ⟨S4096x512, .f32⟩
  | .hbm, ⟨79, _⟩ => ⟨S4096x512, .f32⟩
  | .hbm, ⟨80, _⟩ => ⟨S1x512, .f32⟩
  | .hbm, ⟨81, _⟩ => ⟨S4096x512, .f32⟩
  | .hbm, ⟨82, _⟩ => ⟨S4096x512, .f32⟩
  | .hbm, ⟨83, _⟩ => ⟨S_, .f32⟩
  | .hbm, ⟨84, _⟩ => ⟨S4096x512, .f32⟩
  | .hbm, ⟨85, _⟩ => ⟨S4096x512, .f32⟩
  | .hbm, ⟨86, _⟩ => ⟨S512x1, .f32⟩
  | .hbm, ⟨87, _⟩ => ⟨S4096x1, .f32⟩
  | .hbm, ⟨88, _⟩ => ⟨S1x1, .f32⟩
  | .hbm, ⟨89, _⟩ => ⟨S4096x1, .f32⟩
  | .hbm, ⟨90, _⟩ => ⟨S4096x1, .f32⟩
  | .hbm, ⟨91, _⟩ => ⟨S4096x1, .f32⟩
  | .hbm, ⟨92, _⟩ => ⟨S4096x1, .f32⟩
  | .hbm, ⟨93, _⟩ => ⟨S_, .f32⟩
  | .hbm, ⟨94, _⟩ => ⟨S4096x1, .f32⟩
  | .hbm, ⟨95, _⟩ => ⟨S4096x1, .f32⟩
  | .hbm, ⟨96, _⟩ => ⟨S_, .f32⟩
  | .hbm, ⟨97, _⟩ => ⟨S4096x1, .f32⟩
  | .hbm, ⟨98, _⟩ => ⟨S4096x1, .f32⟩
  | _, _ => ⟨S524288, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_1 : Ref sig .tc := ⟨.hbm, 22, rfl⟩
abbrev main_v10 : Ref sig .tc := ⟨.hbm, 23, rfl⟩
abbrev main_cst_2 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_3 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_4 : Ref sig .tc := ⟨.hbm, 39, rfl⟩
abbrev main_v24 : Ref sig .tc := ⟨.hbm, 40, rfl⟩
abbrev main_cst_5 : Ref sig .tc := ⟨.hbm, 41, rfl⟩
abbrev main_v25 : Ref sig .tc := ⟨.hbm, 42, rfl⟩
abbrev main_v26 : Ref sig .tc := ⟨.hbm, 43, rfl⟩
abbrev main_c_6 : Ref sig .tc := ⟨.hbm, 44, rfl⟩
abbrev main_call0_cst : Ref sig .tc := ⟨.hbm, 45, rfl⟩
abbrev main_call0_v0 : Ref sig .tc := ⟨.hbm, 46, rfl⟩
abbrev main_call0_v1 : Ref sig .tc := ⟨.hbm, 47, rfl⟩
abbrev main_call0_cst_0 : Ref sig .tc := ⟨.hbm, 48, rfl⟩
abbrev main_call0_v2 : Ref sig .tc := ⟨.hbm, 49, rfl⟩
abbrev main_call0_v3 : Ref sig .tc := ⟨.hbm, 50, rfl⟩
abbrev main_call0_v4 : Ref sig .tc := ⟨.hbm, 51, rfl⟩
abbrev main_call0_v5 : Ref sig .tc := ⟨.hbm, 52, rfl⟩
abbrev main_call0_v6 : Ref sig .tc := ⟨.hbm, 53, rfl⟩
abbrev main_call0_v7 : Ref sig .tc := ⟨.hbm, 54, rfl⟩
abbrev main_call0_cst_1 : Ref sig .tc := ⟨.hbm, 55, rfl⟩
abbrev main_call0_v8 : Ref sig .tc := ⟨.hbm, 56, rfl⟩
abbrev main_call0_cst_2 : Ref sig .tc := ⟨.hbm, 57, rfl⟩
abbrev main_call0_v9 : Ref sig .tc := ⟨.hbm, 58, rfl⟩
abbrev main_call0_v10 : Ref sig .tc := ⟨.hbm, 59, rfl⟩
abbrev main_call0_v11 : Ref sig .tc := ⟨.hbm, 60, rfl⟩
abbrev main_call0_cst_3 : Ref sig .tc := ⟨.hbm, 61, rfl⟩
abbrev main_call0_v12 : Ref sig .tc := ⟨.hbm, 62, rfl⟩
abbrev main_call0_cst_4 : Ref sig .tc := ⟨.hbm, 63, rfl⟩
abbrev main_call0_call0_v0 : Ref sig .tc := ⟨.hbm, 64, rfl⟩
abbrev main_call0_call0_v1 : Ref sig .tc := ⟨.hbm, 65, rfl⟩
abbrev main_v27 : Ref sig .tc := ⟨.hbm, 66, rfl⟩
abbrev main_v28 : Ref sig .tc := ⟨.hbm, 67, rfl⟩
abbrev main_v29 : Ref sig .tc := ⟨.hbm, 68, rfl⟩
abbrev main_v30 : Ref sig .tc := ⟨.hbm, 69, rfl⟩
abbrev main_cst_7 : Ref sig .tc := ⟨.hbm, 70, rfl⟩
abbrev main_v31 : Ref sig .tc := ⟨.hbm, 71, rfl⟩
abbrev main_v32 : Ref sig .tc := ⟨.hbm, 72, rfl⟩
abbrev main_v33 : Ref sig .tc := ⟨.hbm, 73, rfl⟩
abbrev main_v34 : Ref sig .tc := ⟨.hbm, 74, rfl⟩
abbrev main_v35 : Ref sig .tc := ⟨.hbm, 75, rfl⟩
abbrev main_v36 : Ref sig .tc := ⟨.hbm, 76, rfl⟩
abbrev main_v37 : Ref sig .tc := ⟨.hbm, 77, rfl⟩
abbrev main_v38 : Ref sig .tc := ⟨.hbm, 78, rfl⟩
abbrev main_v39 : Ref sig .tc := ⟨.hbm, 79, rfl⟩
abbrev main_v40 : Ref sig .tc := ⟨.hbm, 80, rfl⟩
abbrev main_v41 : Ref sig .tc := ⟨.hbm, 81, rfl⟩
abbrev main_v42 : Ref sig .tc := ⟨.hbm, 82, rfl⟩
abbrev main_call1_cst : Ref sig .tc := ⟨.hbm, 83, rfl⟩
abbrev main_call1_v0 : Ref sig .tc := ⟨.hbm, 84, rfl⟩
abbrev main_v43 : Ref sig .tc := ⟨.hbm, 85, rfl⟩
abbrev main_v44 : Ref sig .tc := ⟨.hbm, 86, rfl⟩
abbrev main_v45 : Ref sig .tc := ⟨.hbm, 87, rfl⟩
abbrev main_v46 : Ref sig .tc := ⟨.hbm, 88, rfl⟩
abbrev main_v47 : Ref sig .tc := ⟨.hbm, 89, rfl⟩
abbrev main_v48 : Ref sig .tc := ⟨.hbm, 90, rfl⟩
abbrev main_v49 : Ref sig .tc := ⟨.hbm, 91, rfl⟩
abbrev main_v50 : Ref sig .tc := ⟨.hbm, 92, rfl⟩
abbrev main_cst_8 : Ref sig .tc := ⟨.hbm, 93, rfl⟩
abbrev main_v51 : Ref sig .tc := ⟨.hbm, 94, rfl⟩
abbrev main_v52 : Ref sig .tc := ⟨.hbm, 95, rfl⟩
abbrev main_cst_9 : Ref sig .tc := ⟨.hbm, 96, rfl⟩
abbrev main_v53 : Ref sig .tc := ⟨.hbm, 97, rfl⟩
abbrev main_v54 : Ref sig .tc := ⟨.hbm, 98, rfl⟩

abbrev nD : Nat := 1
abbrev τ : Topo := Topo.v7x

variable {F : FTy → Type} [FloatOps F]

class Facts₀ : Prop where
  bcast_S_S524288 : S_.BroadcastsInDim S524288 (![] : Fin 0 → Fin S524288.rank)
  bcast_S524288_S524288x1_0 : S524288.BroadcastsInDim S524288x1 (![0] : Fin 1 → Fin S524288x1.rank)
  bcast_S_S4096x512 : S_.BroadcastsInDim S4096x512 (![] : Fin 0 → Fin S4096x512.rank)
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x512_0_1 : S4096x1.BroadcastsInDim S4096x512 (![0, 1] : Fin 2 → Fin S4096x512.rank)
  transposes_S512x512_S512x512_1_0 : S512x512.Transposes [1, 0] S512x512
  bcast_S512_S1x512_1 : S512.BroadcastsInDim S1x512 (![1] : Fin 1 → Fin S1x512.rank)
  bcast_S1x512_S4096x512_0_1 : S1x512.BroadcastsInDim S4096x512 (![0, 1] : Fin 2 → Fin S4096x512.rank)
  reducesTo_S4096x512_S512_d0 : S4096x512.ReducesTo [0] S512
  h_S_ : 0 < S_.numel
  bcast_S_S512 : S_.BroadcastsInDim S512 (![] : Fin 0 → Fin S512.rank)
  bcast_S_S1x512 : S_.BroadcastsInDim S1x512 (![] : Fin 0 → Fin S1x512.rank)
  transposes_S1x512_S512x1_1_0 : S1x512.Transposes [1, 0] S512x1
  bcast_S1_S1x1_1 : S1.BroadcastsInDim S1x1 (![1] : Fin 1 → Fin S1x1.rank)
  bcast_S1x1_S4096x1_0_1 : S1x1.BroadcastsInDim S4096x1 (![0, 1] : Fin 2 → Fin S4096x1.rank)
  bcast_S_S4096x1 : S_.BroadcastsInDim S4096x1 (![] : Fin 0 → Fin S4096x1.rank)
  gather_S100000x512_S524288x1_S524288x512_1_0_n_n_0_1_1512_wf : GatherDims.WF S100000x512 S524288x1 S524288x512 [1] [0] [] [0] [] 1 ![1, 512]
  scatter_S4096x512_S524288x1_S524288x512_1_0_0_1_wf : ScatterDims.WF S4096x512 S524288x1 S524288x512 [1] [0] [0] 1
  scatter_S4096_S524288x1_S524288_n_0_0_1_wf : ScatterDims.WF S4096 S524288x1 S524288 [] [0] [0] 1
  dot_S4096x512_S512x512_S4096x512_1_0_0_1_n_n_wf : DotDims.WF S4096x512 S512x512 S4096x512 [1] [0] [0] [1] [] []
  dot_S4096x512_S512x1_S4096x1_1_0_0_1_n_n_wf : DotDims.WF S4096x512 S512x1 S4096x1 [1] [0] [0] [1] [] []

variable [Facts₀]

def gather_S100000x512_S524288x1_S524288x512_1_0_n_n_0_1_1512 : GatherDims S100000x512 S524288x1 S524288x512 where
  offsetDims := [1]
  collapsedSliceDims := [0]
  operandBatchingDims := []
  startIndicesBatchingDims := []
  startIndexMap := [0]
  indexVectorDim := 1
  sliceSizes := ![1, 512]
  wf := gather_S100000x512_S524288x1_S524288x512_1_0_n_n_0_1_1512_wf
def scatter_S4096x512_S524288x1_S524288x512_1_0_0_1 : ScatterDims S4096x512 S524288x1 S524288x512 where
  updateWindowDims := [1]
  insertedWindowDims := [0]
  scatterDimsToOperandDims := [0]
  indexVectorDim := 1
  wf := scatter_S4096x512_S524288x1_S524288x512_1_0_0_1_wf
def scatter_S4096_S524288x1_S524288_n_0_0_1 : ScatterDims S4096 S524288x1 S524288 where
  updateWindowDims := []
  insertedWindowDims := [0]
  scatterDimsToOperandDims := [0]
  indexVectorDim := 1
  wf := scatter_S4096_S524288x1_S524288_n_0_0_1_wf
def dot_S4096x512_S512x512_S4096x512_1_0_0_1_n_n : DotDims S4096x512 S512x512 S4096x512 where
  lhsContracting := [1]
  rhsContracting := [0]
  lhsNonContracting := [0]
  rhsNonContracting := [1]
  lhsBatch := []
  rhsBatch := []
  wf := dot_S4096x512_S512x512_S4096x512_1_0_0_1_n_n_wf
def dot_S4096x512_S512x1_S4096x1_1_0_0_1_n_n : DotDims S4096x512 S512x1 S4096x1 where
  lhsContracting := [1]
  rhsContracting := [0]
  lhsNonContracting := [0]
  rhsNonContracting := [1]
  lhsBatch := []
  rhsBatch := []
  wf := dot_S4096x512_S512x1_S4096x1_1_0_0_1_n_n_wf

class Facts : Prop extends Facts₀ where

variable [Facts]
-- ==== Proof.RefRun.lean ====
/-
  The reference program's @main as one list of host operations — the sixty-eight statements of its two windows with
  the three outlined functions (the variance with its guarded select, the select's own helper, the rectifier) written
  out at their call sites over the calls' buffer records — and its run read back: every execution ends with the result
  buffer at the operations' composed value of the argument arrays, the arguments unchanged. The composed value is
  stated in stages that follow the network: the pooled embeddings (gather, segment sums, division by the clamped counts),
  the first linear layer, the batch mean and the biased batch variance of its columns, the normalisation with scale and
  shift, the rectifier, the second linear layer and the logistic function spelled as 1 / (1 + exp (-y)).
-/
import proofs.«400265_j56075093017160_2_alg».proof.Proof.Gen.ReferenceIdeal
import Idealize.ShloMosaic.Lib.StableHlo.Run

noncomputable section

namespace Cert.ReferenceIdeal.Stages

open Cert.ReferenceIdeal Cert.ReferenceIdeal.Gen Idealize.ShloMosaic Idealize.ShloMosaic.TcCoe Idealize.SL.Sem Idealize.ShloMosaic.StableHlo

variable {F : FTy → Type} [FloatOps F]

/-- @main's operations in order, the callees' operations in place of the calls. -/
abbrev ops : List (HloOp τ sig (Elt F)) :=
  [ nullary main_c (constantI S_ 32 0#32),
    unary main_c main_v0 (broadcastInDim S524288 ![] bcast_S_S524288 : (⟨S_, .i32⟩ : BufTy).Contents (Elt F) → (⟨S524288, .i32⟩ : BufTy).Contents (Elt F)),
    binary main_arg0 main_v0 main_v1 (cmpi .slt : (⟨S524288, .i32⟩ : BufTy).Contents (Elt F) → (⟨S524288, .i32⟩ : BufTy).Contents (Elt F) → (⟨S524288, .i1⟩ : BufTy).Contents (Elt F)),
    nullary main_c_0 (constantI S_ 32 100000#32),
    unary main_c_0 main_v2 (broadcastInDim S524288 ![] bcast_S_S524288 : (⟨S_, .i32⟩ : BufTy).Contents (Elt F) → (⟨S524288, .i32⟩ : BufTy).Contents (Elt F)),
    binary main_arg0 main_v2 main_v3 (addi : (⟨S524288, .i32⟩ : BufTy).Contents (Elt F) → (⟨S524288, .i32⟩ : BufTy).Contents (Elt F) → (⟨S524288, .i32⟩ : BufTy).Contents (Elt F)),
    ternary main_v1 main_v3 main_arg0 main_v4 (select : (⟨S524288, .i1⟩ : BufTy).Contents (Elt F) → (⟨S524288, .i32⟩ : BufTy).Contents (Elt F) → (⟨S524288, .i32⟩ : BufTy).Contents (Elt F) → (⟨S524288, .i32⟩ : BufTy).Contents (Elt F)),
    unary main_v4 main_v5 (broadcastInDim S524288x1 ![0] bcast_S524288_S524288x1_0 : (⟨S524288, .i32⟩ : BufTy).Contents (Elt F) → (⟨S524288x1, .i32⟩ : BufTy).Contents (Elt F)),
    binary main_arg2 main_v5 main_v6 ((fun x i => Host.gather gather_S100000x512_S524288x1_S524288x512_1_0_n_n_0_1_1512 x i) : (⟨S100000x512, .f32⟩ : BufTy).Contents (Elt F) → (⟨S524288x1, .i32⟩ : BufTy).Contents (Elt F) → (⟨S524288x512, .f32⟩ : BufTy).Contents (Elt F)),
    nullary main_cst (constant S_ .f32 0x00000000#32),
    unary main_cst main_v7 (broadcastInDim S4096x512 ![] bcast_S_S4096x512 : (⟨S_, .f32⟩ : BufTy).Contents (Elt F) → (⟨S4096x512, .f32⟩ : BufTy).Contents (Elt F)),
    unary main_arg1 main_v8 (broadcastInDim S524288x1 ![0] bcast_S524288_S524288x1_0 : (⟨S524288, .i32⟩ : BufTy).Contents (Elt F) → (⟨S524288x1, .i32⟩ : BufTy).Contents (Elt F)),
    ternary main_v7 main_v8 main_v6 main_v9 ((fun x i u => Host.scatterAdd scatter_S4096x512_S524288x1_S524288x512_1_0_0_1 x i u) : (⟨S4096x512, .f32⟩ : BufTy).Contents (Elt F) → (⟨S524288x1, .i32⟩ : BufTy).Contents (Elt F) → (⟨S524288x512, .f32⟩ : BufTy).Contents (Elt F) → (⟨S4096x512, .f32⟩ : BufTy).Contents (Elt F)),
    nullary main_cst_1 (constant S_ .f32 0x3F800000#32),
    unary main_cst_1 main_v10 (broadcastInDim S524288 ![] bcast_S_S524288 : (⟨S_, .f32⟩ : BufTy).Contents (Elt F) → (⟨S524288, .f32⟩ : BufTy).Contents (Elt F)),
    nullary main_cst_2 (constant S_ .f32 0x00000000#32),
    unary main_cst_2 main_v11 (broadcastInDim S4096 ![] bcast_S_S4096 : (⟨S_, .f32⟩ : BufTy).Contents (Elt F) → (⟨S4096, .f32⟩ : BufTy).Contents (Elt F)),
    unary main_arg1 main_v12 (broadcastInDim S524288x1 ![0] bcast_S524288_S524288x1_0 : (⟨S524288, .i32⟩ : BufTy).Contents (Elt F) → (⟨S524288x1, .i32⟩ : BufTy).Contents (Elt F)),
    ternary main_v11 main_v12 main_v10 main_v13 ((fun x i u => Host.scatterAdd scatter_S4096_S524288x1_S524288_n_0_0_1 x i u) : (⟨S4096, .f32⟩ : BufTy).Contents (Elt F) → (⟨S524288x1, .i32⟩ : BufTy).Contents (Elt F) → (⟨S524288, .f32⟩ : BufTy).Contents (Elt F) → (⟨S4096, .f32⟩ : BufTy).Contents (Elt F)),
    nullary main_cst_3 (constant S_ .f32 0x3F800000#32),
    unary main_cst_3 main_v14 (broadcastInDim S4096 ![] bcast_S_S4096 : (⟨S_, .f32⟩ : BufTy).Contents (Elt F) → (⟨S4096, .f32⟩ : BufTy).Contents (Elt F)),
    binary main_v13 main_v14 main_v15 (maximumf : (⟨S4096, .f32⟩ : BufTy).Contents (Elt F) → (⟨S4096, .f32⟩ : BufTy).Contents (Elt F) → (⟨S4096, .f32⟩ : BufTy).Contents (Elt F)),
    unary main_v15 main_v16 (broadcastInDim S4096x1 ![0] bcast_S4096_S4096x1_0 : (⟨S4096, .f32⟩ : BufTy).Contents (Elt F) → (⟨S4096x1, .f32⟩ : BufTy).Contents (Elt F)),
    unary main_v16 main_v17 (broadcastInDim S4096x512 ![0, 1] bcast_S4096x1_S4096x512_0_1 : (⟨S4096x1, .f32⟩ : BufTy).Contents (Elt F) → (⟨S4096x512, .f32⟩ : BufTy).Contents (Elt F)),
    binary main_v9 main_v17 main_v18 (Host.divf : (⟨S4096x512, .f32⟩ : BufTy).Contents (Elt F) → (⟨S4096x512, .f32⟩ : BufTy).Contents (Elt F) → (⟨S4096x512, .f32⟩ : BufTy).Contents (Elt F)),
    unary main_arg3 main_v19 ((transpose S512x512 [1, 0] · transposes_S512x512_S512x512_1_0) : (⟨S512x512, .f32⟩ : BufTy).Contents (Elt F) → (⟨S512x512, .f32⟩ : BufTy).Contents (Elt F)),
    binary main_v18 main_v19 main_v20 ((fun l r => Host.dotGeneral dot_S4096x512_S512x512_S4096x512_1_0_0_1_n_n none l r) : (⟨S4096x512, .f32⟩ : BufTy).Contents (Elt F) → (⟨S512x512, .f32⟩ : BufTy).Contents (Elt F) → (⟨S4096x512, .f32⟩ : BufTy).Contents (Elt F)),
    unary main_arg4 main_v21 (broadcastInDim S1x512 ![1] bcast_S512_S1x512_1 : (⟨S512, .f32⟩ : BufTy).Contents (Elt F) → (⟨S1x512, .f32⟩ : BufTy).Contents (Elt F)),
    unary main_v21 main_v22 (broadcastInDim S4096x512 ![0, 1] bcast_S1x512_S4096x512_0_1 : (⟨S1x512, .f32⟩ : BufTy).Contents (Elt F) → (⟨S4096x512, .f32⟩ : BufTy).Contents (Elt F)),
    binary main_v20 main_v22 main_v23 (addf : (⟨S4096x512, .f32⟩ : BufTy).Contents (Elt F) → (⟨S4096x512, .f32⟩ : BufTy).Contents (Elt F) → (⟨S4096x512, .f32⟩ : BufTy).Contents (Elt F)),
    nullary main_cst_4 (constant S_ .f32 0x00000000#32),
    binary main_v23 main_cst_4 main_v24 ((fun x v => Host.reduceAdd x v reducesTo_S4096x512_S512_d0 h_S_) : (⟨S4096x512, .f32⟩ : BufTy).Contents (Elt F) → (⟨S_, .f32⟩ : BufTy).Contents (Elt F) → (⟨S512, .f32⟩ : BufTy).Contents (Elt F)),
    nullary main_cst_5 (constant S_ .f32 0x45800000#32),
    unary main_cst_5 main_v25 (broadcastInDim S512 ![] bcast_S_S512 : (⟨S_, .f32⟩ : BufTy).Contents (Elt F) → (⟨S512, .f32⟩ : BufTy).Contents (Elt F)),
    binary main_v24 main_v25 main_v26 (Host.divf : (⟨S512, .f32⟩ : BufTy).Contents (Elt F) → (⟨S512, .f32⟩ : BufTy).Contents (Elt F) → (⟨S512, .f32⟩ : BufTy).Contents (Elt F)),
    nullary main_c_6 (constantI S_ 32 0#32),
    TRef.nullary main_call0.cst (constant S_ .f32 0x00000000#32),
    TRef.binary (.of main_v23) main_call0.cst main_call0.v0 (fun x v => Host.reduceAdd x v reducesTo_S4096x512_S512_d0 h_S_),
    TRef.unary main_call0.v0 main_call0.v1 (broadcastInDim S1x512 ![1] bcast_S512_S1x512_1),
    TRef.nullary main_call0.cst_0 (constant S_ .f32 0x45800000#32),
    TRef.unary main_call0.cst_0 main_call0.v2 (broadcastInDim S1x512 ![] bcast_S_S1x512),
    TRef.binary main_call0.v1 main_call0.v2 main_call0.v3 Host.divf,
    TRef.unary main_call0.v3 main_call0.v4 (broadcastInDim S4096x512 ![0, 1] bcast_S1x512_S4096x512_0_1),
    TRef.binary (.of main_v23) main_call0.v4 main_call0.v5 subf,
    TRef.binary main_call0.v5 main_call0.v5 main_call0.v6 mulf,
    TRef.unary (.of main_c_6) main_call0.v7 (sitofp .f32),
    TRef.nullary main_call0.cst_1 (constant S_ .f32 0x45800000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S4096x512_S512_d0 h_S_),
    TRef.unary main_call0.v8 main_call0.v10 (broadcastInDim S512 ![] bcast_S_S512),
    TRef.binary main_call0.v9 main_call0.v10 main_call0.v11 Host.divf,
    TRef.nullary main_call0.cst_3 (constant S_ .f32 0x00000000#32),
    TRef.binary main_call0.v8 main_call0.cst_3 main_call0.v12 (cmpf .ogt),
    TRef.nullary main_call0.cst_4 (constant S_ .f32 0x7FC00000#32),
    TRef.unary main_call0.cst_4 main_call0.call0.v0 id,
    TRef.unary main_call0.call0.v0 main_call0.call0.v1 (broadcastInDim S512 ![] bcast_S_S512),
    TRef.ternary main_call0.v12 main_call0.v11 main_call0.call0.v1 main_call0.call0.v2 (fun p a b => select (broadcastInDim S512 ![] bcast_S_S512 p) a b),
    unary main_v26 main_v28 (broadcastInDim S1x512 ![1] bcast_S512_S1x512_1 : (⟨S512, .f32⟩ : BufTy).Contents (Elt F) → (⟨S1x512, .f32⟩ : BufTy).Contents (Elt F)),
    unary main_v28 main_v29 (broadcastInDim S4096x512 ![0, 1] bcast_S1x512_S4096x512_0_1 : (⟨S1x512, .f32⟩ : BufTy).Contents (Elt F) → (⟨S4096x512, .f32⟩ : BufTy).Contents (Elt F)),
    binary main_v23 main_v29 main_v30 (subf : (⟨S4096x512, .f32⟩ : BufTy).Contents (Elt F) → (⟨S4096x512, .f32⟩ : BufTy).Contents (Elt F) → (⟨S4096x512, .f32⟩ : BufTy).Contents (Elt F)),
    nullary main_cst_7 (constant S_ .f32 0x3727C5AC#32),
    unary main_cst_7 main_v31 (broadcastInDim S512 ![] bcast_S_S512 : (⟨S_, .f32⟩ : BufTy).Contents (Elt F) → (⟨S512, .f32⟩ : BufTy).Contents (Elt F)),
    binary main_v27 main_v31 main_v32 (addf : (⟨S512, .f32⟩ : BufTy).Contents (Elt F) → (⟨S512, .f32⟩ : BufTy).Contents (Elt F) → (⟨S512, .f32⟩ : BufTy).Contents (Elt F)),
    unary main_v32 main_v33 (Host.rsqrt : (⟨S512, .f32⟩ : BufTy).Contents (Elt F) → (⟨S512, .f32⟩ : BufTy).Contents (Elt F)),
    unary main_v33 main_v34 (broadcastInDim S1x512 ![1] bcast_S512_S1x512_1 : (⟨S512, .f32⟩ : BufTy).Contents (Elt F) → (⟨S1x512, .f32⟩ : BufTy).Contents (Elt F)),
    unary main_v34 main_v35 (broadcastInDim S4096x512 ![0, 1] bcast_S1x512_S4096x512_0_1 : (⟨S1x512, .f32⟩ : BufTy).Contents (Elt F) → (⟨S4096x512, .f32⟩ : BufTy).Contents (Elt F)),
    binary main_v30 main_v35 main_v36 (mulf : (⟨S4096x512, .f32⟩ : BufTy).Contents (Elt F) → (⟨S4096x512, .f32⟩ : BufTy).Contents (Elt F) → (⟨S4096x512, .f32⟩ : BufTy).Contents (Elt F)),
    unary main_arg5 main_v37 (broadcastInDim S1x512 ![1] bcast_S512_S1x512_1 : (⟨S512, .f32⟩ : BufTy).Contents (Elt F) → (⟨S1x512, .f32⟩ : BufTy).Contents (Elt F)),
    unary main_v37 main_v38 (broadcastInDim S4096x512 ![0, 1] bcast_S1x512_S4096x512_0_1 : (⟨S1x512, .f32⟩ : BufTy).Contents (Elt F) → (⟨S4096x512, .f32⟩ : BufTy).Contents (Elt F)),
    binary main_v36 main_v38 main_v39 (mulf : (⟨S4096x512, .f32⟩ : BufTy).Contents (Elt F) → (⟨S4096x512, .f32⟩ : BufTy).Contents (Elt F) → (⟨S4096x512, .f32⟩ : BufTy).Contents (Elt F)),
    unary main_arg6 main_v40 (broadcastInDim S1x512 ![1] bcast_S512_S1x512_1 : (⟨S512, .f32⟩ : BufTy).Contents (Elt F) → (⟨S1x512, .f32⟩ : BufTy).Contents (Elt F)),
    unary main_v40 main_v41 (broadcastInDim S4096x512 ![0, 1] bcast_S1x512_S4096x512_0_1 : (⟨S1x512, .f32⟩ : BufTy).Contents (Elt F) → (⟨S4096x512, .f32⟩ : BufTy).Contents (Elt F)),
    binary main_v39 main_v41 main_v42 (addf : (⟨S4096x512, .f32⟩ : BufTy).Contents (Elt F) → (⟨S4096x512, .f32⟩ : BufTy).Contents (Elt F) → (⟨S4096x512, .f32⟩ : BufTy).Contents (Elt F)),
    TRef.nullary main_call1.cst (constant S_ .f32 0x00000000#32),
    TRef.unary main_call1.cst main_call1.v0 (broadcastInDim S4096x512 ![] bcast_S_S4096x512),
    TRef.binary (.of main_v42) main_call1.v0 main_call1.v1 maximumf,
    unary main_arg7 main_v44 ((transpose S512x1 [1, 0] · transposes_S1x512_S512x1_1_0) : (⟨S1x512, .f32⟩ : BufTy).Contents (Elt F) → (⟨S512x1, .f32⟩ : BufTy).Contents (Elt F)),
    binary main_v43 main_v44 main_v45 ((fun l r => Host.dotGeneral dot_S4096x512_S512x1_S4096x1_1_0_0_1_n_n none l r) : (⟨S4096x512, .f32⟩ : BufTy).Contents (Elt F) → (⟨S512x1, .f32⟩ : BufTy).Contents (Elt F) → (⟨S4096x1, .f32⟩ : BufTy).Contents (Elt F)),
    unary main_arg8 main_v46 (broadcastInDim S1x1 ![1] bcast_S1_S1x1_1 : (⟨S1, .f32⟩ : BufTy).Contents (Elt F) → (⟨S1x1, .f32⟩ : BufTy).Contents (Elt F)),
    unary main_v46 main_v47 (broadcastInDim S4096x1 ![0, 1] bcast_S1x1_S4096x1_0_1 : (⟨S1x1, .f32⟩ : BufTy).Contents (Elt F) → (⟨S4096x1, .f32⟩ : BufTy).Contents (Elt F)),
    binary main_v45 main_v47 main_v48 (addf : (⟨S4096x1, .f32⟩ : BufTy).Contents (Elt F) → (⟨S4096x1, .f32⟩ : BufTy).Contents (Elt F) → (⟨S4096x1, .f32⟩ : BufTy).Contents (Elt F)),
    unary main_v48 main_v49 (Host.negf : (⟨S4096x1, .f32⟩ : BufTy).Contents (Elt F) → (⟨S4096x1, .f32⟩ : BufTy).Contents (Elt F)),
    unary main_v49 main_v50 (Host.exp : (⟨S4096x1, .f32⟩ : BufTy).Contents (Elt F) → (⟨S4096x1, .f32⟩ : BufTy).Contents (Elt F)),
    nullary main_cst_8 (constant S_ .f32 0x3F800000#32),
    unary main_cst_8 main_v51 (broadcastInDim S4096x1 ![] bcast_S_S4096x1 : (⟨S_, .f32⟩ : BufTy).Contents (Elt F) → (⟨S4096x1, .f32⟩ : BufTy).Contents (Elt F)),
    binary main_v51 main_v50 main_v52 (addf : (⟨S4096x1, .f32⟩ : BufTy).Contents (Elt F) → (⟨S4096x1, .f32⟩ : BufTy).Contents (Elt F) → (⟨S4096x1, .f32⟩ : BufTy).Contents (Elt F)),
    nullary main_cst_9 (constant S_ .f32 0x3F800000#32),
    unary main_cst_9 main_v53 (broadcastInDim S4096x1 ![] bcast_S_S4096x1 : (⟨S_, .f32⟩ : BufTy).Contents (Elt F) → (⟨S4096x1, .f32⟩ : BufTy).Contents (Elt F)),
    binary main_v53 main_v52 main_v54 (Host.divf : (⟨S4096x1, .f32⟩ : BufTy).Contents (Elt F) → (⟨S4096x1, .f32⟩ : BufTy).Contents (Elt F) → (⟨S4096x1, .f32⟩ : BufTy).Contents (Elt F)) ]

set_option maxRecDepth 4096 in
set_option maxHeartbeats 4000000 in
/-- @main is that straight line: its two windows and the callees unfolded, the sequencing reassociated. -/
theorem main_eq (c : Dev nD) : main (F := F) c = seq ops := by
  simp only [main, main_part0, main_part1, fn_var.body, fn_where.body, fn_relu.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., unary_bufs_sub .., binary_bufs_sub .., unary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub ..⟩

/-- Every execution of @main terminates with each buffer at the operations' fold over the launch contents. -/
theorem run_fold (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-! ## The composed value, in stages -/

/-- The gather's start rows as a column: a negative token id `t` counts from the table's end (`t + 100000`), any
    other id stands for itself. -/
def rows (tok : IVec S524288 32) : IVec S524288x1 32 :=
  broadcastInDim S524288x1 ![0] bcast_S524288_S524288x1_0
    (select (cmpi .slt tok (broadcastInDim S524288 ![] bcast_S_S524288 (constantI S_ 32 0#32)))
      (addi tok (broadcastInDim S524288 ![] bcast_S_S524288 (constantI S_ 32 100000#32))) tok)

/-- Segment means of the gathered rows `g`: per segment the sum of its rows, divided by the number of its rows
    clamped below by one (an empty segment has mean zero). -/
def pooledOf (seg : IVec S524288 32) (g : FVec F S524288x512 .f32) : FVec F S4096x512 .f32 :=
  Host.divf
    (Host.scatterAdd scatter_S4096x512_S524288x1_S524288x512_1_0_0_1
      (broadcastInDim S4096x512 ![] bcast_S_S4096x512 (constant S_ .f32 0x00000000#32))
      (broadcastInDim S524288x1 ![0] bcast_S524288_S524288x1_0 seg) g)
    (broadcastInDim S4096x512 ![0, 1] bcast_S4096x1_S4096x512_0_1
      (broadcastInDim S4096x1 ![0] bcast_S4096_S4096x1_0
        (maximumf
          (Host.scatterAdd scatter_S4096_S524288x1_S524288_n_0_0_1
            (broadcastInDim S4096 ![] bcast_S_S4096 (constant S_ .f32 0x00000000#32))
            (broadcastInDim S524288x1 ![0] bcast_S524288_S524288x1_0 seg)
            (broadcastInDim S524288 ![] bcast_S_S524288 (constant S_ .f32 0x3F800000#32)))
          (broadcastInDim S4096 ![] bcast_S_S4096 (constant S_ .f32 0x3F800000#32)))))

/-- A vector of 512 entries repeated as every one of 4096 rows. -/
def rowsOf (v : FVec F S512 .f32) : FVec F S4096x512 .f32 :=
  broadcastInDim S4096x512 ![0, 1] bcast_S1x512_S4096x512_0_1 (broadcastInDim S1x512 ![1] bcast_S512_S1x512_1 v)

/-- The first linear layer over the transposed weights `W1t = W1ᵀ`: `P · W1t + b1`. -/
def fc1 (P : FVec F S4096x512 .f32) (W1t : FVec F S512x512 .f32) (b1 : FVec F S512 .f32) : FVec F S4096x512 .f32 :=
  addf (Host.dotGeneral dot_S4096x512_S512x512_S4096x512_1_0_0_1_n_n none P W1t) (rowsOf b1)

/-- The column sums of a 4096 × 512 array. -/
def colSum (X : FVec F S4096x512 .f32) : FVec F S512 .f32 :=
  Host.reduceAdd X (constant S_ .f32 0x00000000#32) reducesTo_S4096x512_S512_d0 h_S_

/-- The batch mean of each column: the column sum over 4096. -/
def colMean (X : FVec F S4096x512 .f32) : FVec F S512 .f32 :=
  Host.divf (colSum X) (broadcastInDim S512 ![] bcast_S_S512 (constant S_ .f32 0x45800000#32))

/-- The deviations from the column means as the variance computes them (the mean taken on a 1 × 512 row). -/
def devs (X : FVec F S4096x512 .f32) : FVec F S4096x512 .f32 :=
  subf X (broadcastInDim S4096x512 ![0, 1] bcast_S1x512_S4096x512_0_1
    (Host.divf (broadcastInDim S1x512 ![1] bcast_S512_S1x512_1 (colSum X))
      (broadcastInDim S1x512 ![] bcast_S_S1x512 (constant S_ .f32 0x45800000#32))))

/-- The divisor of the biased variance: 4096 minus zero degrees of freedom. -/
def varDen : FVec F S_ .f32 :=
  subf (constant S_ .f32 0x45800000#32) (sitofp (F := F) .f32 (constantI S_ 32 0#32))

/-- The biased batch variance of each column: the mean of the squared deviations where the divisor is positive. -/
def colVar (X : FVec F S4096x512 .f32) : FVec F S512 .f32 :=
  select (broadcastInDim S512 ![] bcast_S_S512 (cmpf (F := F) .ogt varDen (constant S_ .f32 0x00000000#32)))
    (Host.divf (colSum (mulf (devs X) (devs X))) (broadcastInDim S512 ![] bcast_S_S512 varDen))
    (broadcastInDim S512 ![] bcast_S_S512 (id (constant (F := F) S_ .f32 0x7FC00000#32)))

/-- Batch normalisation with scale `g` and shift `be`: `(X − mean) · rsqrt (var + ε) · g + be`, column by column. -/
def normed (X : FVec F S4096x512 .f32) (g be : FVec F S512 .f32) : FVec F S4096x512 .f32 :=
  addf (mulf (mulf (subf X (rowsOf (colMean X)))
      (rowsOf (Host.rsqrt (addf (colVar X) (broadcastInDim S512 ![] bcast_S_S512 (constant S_ .f32 0x3727C5AC#32))))))
    (rowsOf g)) (rowsOf be)

/-- The rectifier: the maximum with zero. -/
def rect (Y : FVec F S4096x512 .f32) : FVec F S4096x512 .f32 :=
  maximumf Y (broadcastInDim S4096x512 ![] bcast_S_S4096x512 (constant S_ .f32 0x00000000#32))

/-- The second linear layer over the transposed weights `W2t = W2ᵀ`, a column: `R · W2t + b2`. -/
def fc2 (R : FVec F S4096x512 .f32) (W2t : FVec F S512x1 .f32) (b2 : FVec F S1 .f32) : FVec F S4096x1 .f32 :=
  addf (Host.dotGeneral dot_S4096x512_S512x1_S4096x1_1_0_0_1_n_n none R W2t)
    (broadcastInDim S4096x1 ![0, 1] bcast_S1x1_S4096x1_0_1 (broadcastInDim S1x1 ![1] bcast_S1_S1x1_1 b2))

/-- The logistic function as the reference spells it: `1 / (1 + exp (−y))`. -/
def sigm (y : FVec F S4096x1 .f32) : FVec F S4096x1 .f32 :=
  Host.divf (broadcastInDim S4096x1 ![] bcast_S_S4096x1 (constant S_ .f32 0x3F800000#32))
    (addf (broadcastInDim S4096x1 ![] bcast_S_S4096x1 (constant S_ .f32 0x3F800000#32)) (Host.exp (Host.negf y)))

/-- The network after the pooling, over the transposed weight matrices: linear, batch-normalised, rectified, linear,
    logistic. -/
def mlp (P : FVec F S4096x512 .f32) (W1t : FVec F S512x512 .f32) (b1 g be : FVec F S512 .f32) (W2t : FVec F S512x1 .f32)
    (b2 : FVec F S1 .f32) : FVec F S4096x1 .f32 :=
  sigm (fc2 (rect (normed (fc1 P W1t b1) g be)) W2t b2)

/-- The reference's result as one function of its nine arguments. -/
def out (tok seg : IVec S524288 32) (emb : FVec F S100000x512 .f32) (W1 : FVec F S512x512 .f32) (b1 g be : FVec F S512 .f32)
    (W2 : FVec F S1x512 .f32) (b2 : FVec F S1 .f32) : FVec F S4096x1 .f32 :=
  mlp (pooledOf seg (Host.gather gather_S100000x512_S524288x1_S524288x512_1_0_n_n_0_1_1512 emb (rows tok)))
    (transpose S512x512 [1, 0] W1 transposes_S512x512_S512x512_1_0) b1 g be
    (transpose S512x1 [1, 0] W2 transposes_S1x512_S512x1_1_0) b2

attribute [local irreducible] Host.reduceAdd Host.gather Host.scatterAdd in
set_option maxRecDepth 16384 in
set_option maxHeartbeats 4000000 in
/-- The fold at the result buffer is `out` of the contents of the argument buffers. -/
theorem out_eq (V : Valuation τ sig (Elt F)) :
    after ops V (main_v54 : DevRef τ sig)
      = out (V (main_arg0 : DevRef τ sig)) (V (main_arg1 : DevRef τ sig)) (V (main_arg2 : DevRef τ sig))
          (V (main_arg3 : DevRef τ sig)) (V (main_arg4 : DevRef τ sig)) (V (main_arg5 : DevRef τ sig))
          (V (main_arg6 : DevRef τ sig)) (V (main_arg7 : DevRef τ sig)) (V (main_arg8 : DevRef τ sig)) := by
  simp only [after_cons, after_nil]
  rfl

/-! ## No operation writes an argument buffer -/

theorem arg0_eq (V : Valuation τ sig (Elt F)) :
    after ops V (main_arg0 : DevRef τ sig) = V (main_arg0 : DevRef τ sig) := by
  simp only [after_cons, after_nil]
  rfl

theorem arg1_eq (V : Valuation τ sig (Elt F)) :
    after ops V (main_arg1 : DevRef τ sig) = V (main_arg1 : DevRef τ sig) := by
  simp only [after_cons, after_nil]
  rfl

theorem arg2_eq (V : Valuation τ sig (Elt F)) :
    after ops V (main_arg2 : DevRef τ sig) = V (main_arg2 : DevRef τ sig) := by
  simp only [after_cons, after_nil]
  rfl

theorem arg3_eq (V : Valuation τ sig (Elt F)) :
    after ops V (main_arg3 : DevRef τ sig) = V (main_arg3 : DevRef τ sig) := by
  simp only [after_cons, after_nil]
  rfl

theorem arg4_eq (V : Valuation τ sig (Elt F)) :
    after ops V (main_arg4 : DevRef τ sig) = V (main_arg4 : DevRef τ sig) := by
  simp only [after_cons, after_nil]
  rfl

theorem arg5_eq (V : Valuation τ sig (Elt F)) :
    after ops V (main_arg5 : DevRef τ sig) = V (main_arg5 : DevRef τ sig) := by
  simp only [after_cons, after_nil]
  rfl

theorem arg6_eq (V : Valuation τ sig (Elt F)) :
    after ops V (main_arg6 : DevRef τ sig) = V (main_arg6 : DevRef τ sig) := by
  simp only [after_cons, after_nil]
  rfl

theorem arg7_eq (V : Valuation τ sig (Elt F)) :
    after ops V (main_arg7 : DevRef τ sig) = V (main_arg7 : DevRef τ sig) := by
  simp only [after_cons, after_nil]
  rfl

theorem arg8_eq (V : Valuation τ sig (Elt F)) :
    after ops V (main_arg8 : DevRef τ sig) = V (main_arg8 : DevRef τ sig) := by
  simp only [after_cons, after_nil]
  rfl

/-! ## The run, read -/

/-- Every execution of the reference terminates with the result buffer at `out` of the argument arrays as launched,
    and the argument arrays unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v54)
        = out (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
            (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨(h c main_v54).trans (out_eq _),
      (h c main_arg0).trans (arg0_eq _), (h c main_arg1).trans (arg1_eq _), (h c main_arg2).trans (arg2_eq _),
      (h c main_arg3).trans (arg3_eq _), (h c main_arg4).trans (arg4_eq _), (h c main_arg5).trans (arg5_eq _),
      (h c main_arg6).trans (arg6_eq _), (h c main_arg7).trans (arg7_eq _), (h c main_arg8).trans (arg8_eq _)⟩)
    (run_fold m ρ)

end Cert.ReferenceIdeal.Stages

end
-- ==== Proof.KernelValue.lean ====
/-
  What the kernel program computes, read off its frame run. Before its one launch the host gathers one embedding
  row per token — a row whose wrapped index falls outside the table is filled with the not-a-number pattern instead —,
  sums the rows of each segment, divides by the segment's size clamped below by one, and changes the float format of
  the pooled means and of the two transposed weight matrices. The launch has a single grid point, every window's block
  is its whole array, and the body stores its result once over the whole output block: so the output array ends
  holding the body's value of the arrays the region finds. That value is restated in stages: first linear layer,
  column means, deviations, inverse standard deviation, scale and shift, rectifier, second linear layer, logistic.
-/
import proofs.«400265_j56075093017160_2_alg».proof.Proof.KernelIdealValue
import Idealize.ShloMosaic.Lib.StableHlo.Run
import Idealize.ShloMosaic.Lib.Pipeline.Value

noncomputable section

namespace Cert.KernelIdeal.Out

open Cert.KernelIdeal Cert.KernelIdeal.Gen Idealize.ShloMosaic Idealize.ShloMosaic.TcCoe Idealize.SL.Sem
open Idealize.ShloMosaic.Pipeline (Dat)

variable {F : FTy → Type} [FloatOps F]

/-! ## The host operations before the launch, in stages -/

/-- The gather's start rows as a column: a negative token id `t` counts from the table's end (`t + 100000`), any
    other id stands for itself. -/
def rows (tok : IVec S524288 32) : IVec S524288x1 32 :=
  broadcastInDim S524288x1 ![0] bcast_S524288_S524288x1_0
    (select (cmpi .slt tok (broadcastInDim S524288 ![] bcast_S_S524288 (constantI S_ 32 0#32)))
      (addi tok (broadcastInDim S524288 ![] bcast_S_S524288 (constantI S_ 32 100000#32))) tok)

/-- Per token: is its start row inside the table, `0 ≤ row ≤ 99999`? -/
def inRange (tok : IVec S524288 32) : IVec S524288 1 :=
  Host.reduce IntOp.andi
    (andi (cmpi .sge (rows tok) (broadcastInDim S524288x1 ![] bcast_S_S524288x1 (constantI S_ 32 0#32)))
      (cmpi .sle (rows tok) (broadcastInDim S524288x1 ![0, 1] bcast_S1x1_S524288x1_0_1
        (broadcastInDim S1x1 ![1] bcast_S1_S1x1_1 (constantI S1 32 99999#32)))))
    (constantI S_ 1 1#1) reducesTo_S524288x1_S524288_d1 h_S_

/-- The gathered rows, a row out of range replaced by the fill pattern. -/
def taken (emb : FVec F S100000x512 .f32) (tok : IVec S524288 32) : FVec F S524288x512 .f32 :=
  select (broadcastInDim S524288x512 ![0] bcast_S524288_S524288x512_0 (inRange tok))
    (Host.gather gather_S100000x512_S524288x1_S524288x512_1_0_n_n_0_1_1512 emb (rows tok))
    (broadcastInDim S524288x512 ![] bcast_S_S524288x512 (constant S_ .f32 0x7FC00000#32))

/-- Segment means of the rows `g`: per segment the sum of its rows over the number of its rows clamped below by one. -/
def pooledOf (seg : IVec S524288 32) (g : FVec F S524288x512 .f32) : FVec F S4096x512 .f32 :=
  Host.divf
    (Host.scatterAdd scatter_S4096x512_S524288x1_S524288x512_1_0_0_1
      (broadcastInDim S4096x512 ![] bcast_S_S4096x512 (constant S_ .f32 0x00000000#32))
      (broadcastInDim S524288x1 ![0] bcast_S524288_S524288x1_0 seg) g)
    (broadcastInDim S4096x512 ![0, 1] bcast_S4096x1_S4096x512_0_1
      (broadcastInDim S4096x1 ![0] bcast_S4096_S4096x1_0
        (maximumf
          (Host.scatterAdd scatter_S4096_S524288x1_S524288_n_0_0_1
            (broadcastInDim S4096 ![] bcast_S_S4096 (constant S_ .f32 0x00000000#32))
            (broadcastInDim S524288x1 ![0] bcast_S524288_S524288x1_0 seg)
            (broadcastInDim S524288 ![] bcast_S_S524288 (constant S_ .f32 0x3F800000#32)))
          (broadcastInDim S4096 ![] bcast_S_S4096 (constant S_ .f32 0x3F800000#32)))))

variable (m : (ℓ : Loc nD τ sig) → Buf (Elt F) ℓ) (ρ : Dev nD → PrngReg)

/-- The pooled means in the narrower format, as the launch finds them. -/
def pooledIn (c : Dev nD) : FVec F S4096x512 .bf16 :=
  truncf .bf16 (pooledOf (m ((c : Thread nD τ).loc main_arg1)) (taken (m ((c : Thread nD τ).loc main_arg2)) (m ((c : Thread nD τ).loc main_arg0)))) bitsLt_bf16_f32

/-- The first weight matrix transposed, in the narrower format. -/
def w1In (c : Dev nD) : FVec F S512x512 .bf16 :=
  truncf .bf16 (transpose S512x512 [1, 0] (m ((c : Thread nD τ).loc main_arg3)) transposes_S512x512_S512x512_1_0) bitsLt_bf16_f32

/-- The second weight matrix transposed to a column, in the narrower format. -/
def w2In (c : Dev nD) : FVec F S512x1 .bf16 :=
  truncf .bf16 (transpose S512x1 [1, 0] (m ((c : Thread nD τ).loc main_arg7)) transposes_S1x512_S512x1_1_0) bitsLt_bf16_f32

attribute [local irreducible] Host.reduce Host.gather Host.scatterAdd in
set_option maxRecDepth 16384 in
set_option maxHeartbeats 4000000 in
theorem V_pooled (c : Dev nD) : (V m c main_v13 : FVec F S4096x512 .bf16) = pooledIn m c := by
  dsimp only [V]
  simp only [hostOps0, hostOps0_1, List.flatten_cons, List.flatten_nil, List.append_nil, List.cons_append, List.nil_append]
  simp only [StableHlo.after_cons, StableHlo.after_nil]
  rfl

attribute [local irreducible] Host.reduce Host.gather Host.scatterAdd in
set_option maxRecDepth 16384 in
set_option maxHeartbeats 4000000 in
theorem V_w1 (c : Dev nD) : (V m c main_v15 : FVec F S512x512 .bf16) = w1In m c := by
  dsimp only [V]
  simp only [hostOps0, hostOps0_1, List.flatten_cons, List.flatten_nil, List.append_nil, List.cons_append, List.nil_append]
  simp only [StableHlo.after_cons, StableHlo.after_nil]
  rfl

attribute [local irreducible] Host.reduce Host.gather Host.scatterAdd in
set_option maxRecDepth 16384 in
set_option maxHeartbeats 4000000 in
theorem V_w2 (c : Dev nD) : (V m c main_v17 : FVec F S512x1 .bf16) = w2In m c := by
  dsimp only [V]
  simp only [hostOps0, hostOps0_1, List.flatten_cons, List.flatten_nil, List.append_nil, List.cons_append, List.nil_append]
  simp only [StableHlo.after_cons, StableHlo.after_nil]
  rfl

/-! ## The body's value, in stages -/

/-- A vector of 512 entries laid out as one row and repeated as every one of 4096 rows. -/
def krow (v : FVec F S512 .f32) : FVec F S4096x512 .f32 :=
  broadcastTo S4096x512 (shapeCast S1x512 v shapeCasts_S512_S1x512) broadcasts_S1x512_S4096x512

/-- The column sums, as the body takes them. -/
def ksum (X : FVec F S4096x512 .f32) : FVec F S512 .f32 :=
  multiReduction .add [0] S512 X 0x00000000#32 reduces_S4096x512_S512 (.inl rfl) rfl

/-- The first linear layer on the staged blocks. -/
def kfc1 (P : Vec F S4096x512 .bf16) (W : Vec F S512x512 .bf16) (b1 : Vec F S512 .f32) : FVec F S4096x512 .f32 :=
  addf (matmul dot_S4096x512_S512x512_S4096x512_1_0_0_1_n_n none (shapeCast S4096x512 P shapeCasts_S4096x512_S4096x512)
      (shapeCast S512x512 W shapeCasts_S512x512_S512x512) (constant S4096x512 .f32 0x00000000#32)) (krow b1)

/-- The column means, one row repeated: the column sums over 4096. -/
def kmean (X : FVec F S4096x512 .f32) : FVec F S4096x512 .f32 :=
  broadcastTo S4096x512 (divf (shapeCast S1x512 (ksum X) shapeCasts_S512_S1x512) (broadcast S1x512 (Scalar.ofBits .f32 0x45800000#32)))
    broadcasts_S1x512_S4096x512

/-- From the deviations `D`: the inverse standard deviation of each column, one row repeated. -/
def kinv (D : FVec F S4096x512 .f32) : FVec F S4096x512 .f32 :=
  broadcastTo S4096x512
    (rsqrt (addf (divf (shapeCast S1x512 (ksum (mulf D D)) shapeCasts_S512_S1x512) (broadcast S1x512 (Scalar.ofBits .f32 0x45800000#32)))
      (broadcast S1x512 (Scalar.ofBits .f32 0x3727C5AC#32))))
    broadcasts_S1x512_S4096x512

/-- Batch normalisation with scale and shift, then the rectifier. -/
def knorm (X : FVec F S4096x512 .f32) (g be : Vec F S512 .f32) : FVec F S4096x512 .f32 :=
  maximumf (addf (mulf (mulf (subf X (kmean X)) (kinv (subf X (kmean X)))) (krow g)) (krow be))
    (broadcast S4096x512 (Scalar.ofBits .f32 0x00000000#32))

/-- The second linear layer on the rectified values in the narrower format. -/
def kfc2 (R : FVec F S4096x512 .f32) (W : Vec F S512x1 .bf16) : FVec F S4096x1 .f32 :=
  matmul dot_S4096x512_S512x1_S4096x1_1_0_0_1_n_n none (truncf .bf16 R bitsLt_bf16_f32) (shapeCast S512x1 W shapeCasts_S512x1_S512x1)
    (constant S4096x1 .f32 0x00000000#32)

/-- The body's stored value of its seven loaded blocks. -/
def body (P : Vec F S4096x512 .bf16) (W1 : Vec F S512x512 .bf16) (b1 g be : Vec F S512 .f32) (W2 : Vec F S512x1 .bf16)
    (b2 : Vec F S1 .f32) : FVec F S4096x1 .f32 :=
  logistic (addf (kfc2 (knorm (kfc1 P W1 b1) g be) W2) (broadcastTo S4096x1 (shapeCast S1x1 b2 shapeCasts_S1_S1x1) broadcasts_S1x1_S4096x1))

/-- The printed payloads are those stages. -/
theorem pay_eq (P : Vec F S4096x512 .bf16) (W1 : Vec F S512x512 .bf16) (b1 g be : Vec F S512 .f32) (W2 : Vec F S512x1 .bf16)
    (b2 : Vec F S1 .f32) : k0_pay1 (k0_pay2 P W1 b1 g be W2) (k0_pay3 b2) = body P W1 b1 g be W2 b2 := rfl

/-! ## The output array after the run -/

/-- What the output array ends holding. -/
def result (c : Dev nD) : FVec F S4096x1 .f32 :=
  body (pooledIn m c) (w1In m c) (m ((c : Thread nD τ).loc main_arg4)) (m ((c : Thread nD τ).loc main_arg5))
    (m ((c : Thread nD τ).loc main_arg6)) (w2In m c) (m ((c : Thread nD τ).loc main_arg8))

theorem hz2 : (![0, 0] : Fin 2 → Nat) = fun _ => 0 := funext fun a => by fin_cases a <;> rfl
theorem hz1 : (![0] : Fin 1 → Nat) = fun _ => 0 := funext fun a => by fin_cases a <;> rfl

/-- At the one grid point each input window's block is its whole array. -/
theorem iblk0 (c : Dev nD) : iblk m c 0 t0_0 = pooledIn m c := by
  have hz' : (fun a => win0_0.index t0_0 a * main_v13.ty.shape.size a) = fun _ => 0 := funext fun a => by fin_cases a <;> decide
  exact (Memref.read_access_unit_zero (Elt F) main_v13 hz' (fun a => by rw [congrFun hz' a]; simp) (V m c main_v13)).trans (V_pooled m c)

theorem iblk1 (c : Dev nD) : iblk m c 1 t0_0 = w1In m c := by
  have hz' : (fun a => win0_1.index t0_0 a * main_v15.ty.shape.size a) = fun _ => 0 := funext fun a => by fin_cases a <;> decide
  exact (Memref.read_access_unit_zero (Elt F) main_v15 hz' (fun a => by rw [congrFun hz' a]; simp) (V m c main_v15)).trans (V_w1 m c)

theorem iblk2 (c : Dev nD) : iblk m c 2 t0_0 = m ((c : Thread nD τ).loc main_arg4) := by
  have hz' : (fun a => win0_2.index t0_0 a * main_arg4.ty.shape.size a) = fun _ => 0 := funext fun a => by fin_cases a <;> decide
  exact (Memref.read_access_unit_zero (Elt F) main_arg4 hz' (fun a => by rw [congrFun hz' a]; simp) (V m c main_arg4)).trans (V_main_arg4 m c)

theorem iblk3 (c : Dev nD) : iblk m c 3 t0_0 = m ((c : Thread nD τ).loc main_arg5) := by
  have hz' : (fun a => win0_3.index t0_0 a * main_arg5.ty.shape.size a) = fun _ => 0 := funext fun a => by fin_cases a <;> decide
  exact (Memref.read_access_unit_zero (Elt F) main_arg5 hz' (fun a => by rw [congrFun hz' a]; simp) (V m c main_arg5)).trans (V_main_arg5 m c)

theorem iblk4 (c : Dev nD) : iblk m c 4 t0_0 = m ((c : Thread nD τ).loc main_arg6) := by
  have hz' : (fun a => win0_4.index t0_0 a * main_arg6.ty.shape.size a) = fun _ => 0 := funext fun a => by fin_cases a <;> decide
  exact (Memref.read_access_unit_zero (Elt F) main_arg6 hz' (fun a => by rw [congrFun hz' a]; simp) (V m c main_arg6)).trans (V_main_arg6 m c)

theorem iblk5 (c : Dev nD) : iblk m c 5 t0_0 = w2In m c := by
  have hz' : (fun a => win0_5.index t0_0 a * main_v17.ty.shape.size a) = fun _ => 0 := funext fun a => by fin_cases a <;> decide
  exact (Memref.read_access_unit_zero (Elt F) main_v17 hz' (fun a => by rw [congrFun hz' a]; simp) (V m c main_v17)).trans (V_w2 m c)

theorem iblk6 (c : Dev nD) : iblk m c 6 t0_0 = m ((c : Thread nD τ).loc main_arg8) := by
  have hz' : (fun a => win0_6.index t0_0 a * main_arg8.ty.shape.size a) = fun _ => 0 := funext fun a => by fin_cases a <;> decide
  exact (Memref.read_access_unit_zero (Elt F) main_arg8 hz' (fun a => by rw [congrFun hz' a]; simp) (V m c main_arg8)).trans (V_main_arg8 m c)

/-- The one point writes back `result`: the single store through the whole output block leaves its payload, the loads
    through the whole input blocks read them, and the output block at zero offsets is the whole array. -/
theorem flushed_eq (c : Dev nD) (t : Fin cfg0.N) :
    (dats m 0 c).flushed 7 t = ((cfg0.win 7).blk t).view.read (Elt F) (result m c) := by
  obtain rfl := fin_N0 t
  rw [Cert.KernelIdeal.ValueP.flushed7, iblk0, iblk1, iblk2, iblk3, iblk4, iblk5, iblk6]
  unfold out0_7
  rw [View.canon_unit_zero hz2]
  simp only [View.ld_unit_zero (S := S4096x512) hz2, View.ld_unit_zero (S := S512x512) hz2, View.ld_unit_zero (S := S512) hz1,
    View.ld_unit_zero (S := S512x1) hz2, View.ld_unit_zero (S := S1) hz1]
  rw [pay_eq]
  have hz' : (fun a => win0_7.index t0_0 a * main_v18.ty.shape.size a) = fun _ => 0 := funext fun a => by fin_cases a <;> decide
  exact (Memref.read_access_unit_zero (Elt F) main_v18 hz' (fun a => by rw [congrFun hz' a]; simp) (result m c)).symm

/-- So the output array ends holding `result`: the one point's block covers it. -/
theorem final (c : Dev nD) : (dats m 0 c).arrAt 7 cfg0.N = result m c :=
  (dats m 0 c).arrAt_eq_of_cover 7 (result m c) (fun t _ => flushed_eq m c t) fun i =>
    ⟨t0_0, flush0_7 t0_0, by
      show i ∈ ((View.whole main_v18).slice (win0_7.rect t0_0)).set
      rw [View.set_slice_whole, Rect.mem_set_unit]
      intro a
      have h0 : (i 0 : Nat) < 4096 := (i 0).isLt
      have h1 : (i 1 : Nat) < 1 := (i 1).isLt
      match a with
      | ⟨0, _⟩ =>
        show win0_7.index t0_0 0 * win0_7.size 0 ≤ (i 0 : Nat) ∧ (i 0 : Nat) < win0_7.index t0_0 0 * win0_7.size 0 + win0_7.xsize (grid0.coords t0_0) 0
        rw [show win0_7.index t0_0 0 * win0_7.size 0 = 0 from by decide +kernel, show win0_7.xsize (grid0.coords t0_0) 0 = 4096 from by decide +kernel]; omega
      | ⟨1, _⟩ =>
        show win0_7.index t0_0 1 * win0_7.size 1 ≤ (i 1 : Nat) ∧ (i 1 : Nat) < win0_7.index t0_0 1 * win0_7.size 1 + win0_7.xsize (grid0.coords t0_0) 1
        rw [show win0_7.index t0_0 1 * win0_7.size 1 = 0 from by decide +kernel, show win0_7.xsize (grid0.coords t0_0) 1 = 1 from by decide +kernel]; omega⟩

/-- The run, read: the result array at `result`, the arguments unchanged. -/
theorem run : θ_run defs (onTc (τ := τ) (main (F := F))) ⟨m, fun _ => 0, ρ⟩ fun r => ∀ c : Dev nD,
      r.2.mem ((c : Thread nD τ).loc main_v18) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun _ h c => ⟨(h c).1.trans (final m c), (h c).2⟩)
    (Cert.KernelIdeal.ValueP.run_blocks m ρ)

end Cert.KernelIdeal.Out

end
-- ==== Proof.Tokens.lean ====
/-
  Token ids. An id indexes the 100000-row embedding table the way array indexing does: `0 … 99999` name a row, and
  `-100000 … -1` name rows from the end. The precondition says every id is in that range. A wrapped admissible id
  (a negative one shifted by 100000) lies in `0 … 99999`, so the kernel program's test "is the start row inside the
  table" succeeds for every token, its fill pattern is never selected, and the rows it gathers are the rows the
  reference gathers. The segment means of equal rows are equal.
-/
import proofs.«400265_j56075093017160_2_alg».proof.Defs
import proofs.«400265_j56075093017160_2_alg».proof.Proof.Gen.Pre_finite_inputs
import proofs.«400265_j56075093017160_2_alg».proof.Proof.RefRun
import proofs.«400265_j56075093017160_2_alg».proof.Proof.KernelValue
import Idealize.ShloMosaic.Lib.ReduceAll
import Idealize.ShloMosaic.Lib.Affine

noncomputable section

namespace Cert.Tokens

open Idealize.ShloMosaic Idealize.SL.Sem
open Cert.KernelIdeal Cert.KernelIdeal.Gen Cert.KernelIdeal.Out

/-- Every token id names a row of the table, from the front or from the end. -/
def Admissible (tok : IVec S524288 32) : Prop :=
  ∀ e : S524288.Idx, -100000 ≤ (tok e).toInt ∧ (tok e).toInt < 100000

/-! ## The precondition says so -/

instance : Subsingleton Cert.Pre_finite_inputs.S_.Idx := ⟨fun a b => funext fun d => d.elim0⟩

/-- The precondition's last conjunct, read back: every id is at least -100000 and less than 100000. -/
theorem admissible_of_pre [Cert.Pre_finite_inputs.Facts] {F : FTy → Type} [FloatOps F]
    (a0 a1 : IVec Cert.Pre_finite_inputs.S524288 32) (a2 : FVec F Cert.Pre_finite_inputs.S100000x512 .f32)
    (a3 : FVec F Cert.Pre_finite_inputs.S512x512 .f32) (a4 a5 a6 : FVec F Cert.Pre_finite_inputs.S512 .f32)
    (a7 : FVec F Cert.Pre_finite_inputs.S1x512 .f32) (a8 : FVec F Cert.Pre_finite_inputs.S1 .f32)
    (h : Cert.Pre_finite_inputs.fn (F := F) a0 a1 a2 a3 a4 a5 a6 a7 a8 = fun _ => 1#1) : Admissible a0 := by
  intro e
  have h0 := congrFun h (fun d => d.elim0)
  simp only [Cert.Pre_finite_inputs.fn, Cert.Pre_finite_inputs.fn_part1, Cert.Pre_finite_inputs.fn_part2] at h0
  have h1 : IntOp.andi _ _ = 1#1 := h0
  have h2 := (IntOp.andi_eq_one.1 h1).2
  have h3 := Host.reduce_andi_all _ _ _ _ _ h2 e
  have h4 : IntOp.andi (IntOp.cmpi .sge (a0 e) 4294867296#32) (IntOp.cmpi .slt (a0 e) 100000#32) = 1#1 := h3
  obtain ⟨h5, h6⟩ := IntOp.andi_eq_one.1 h4
  have h7 := IntOp.cmpi_sge.1 h5
  have h8 := IntOp.cmpi_slt.1 h6
  rw [show (4294867296#32 : BitVec 32).toInt = -100000 from by decide] at h7
  rw [show (100000#32 : BitVec 32).toInt = 100000 from by decide] at h8
  exact ⟨h7, h8⟩

/-! ## A wrapped admissible id is a row number -/

/-- Adding 100000 to an id in `-100000 … -1` does not wrap around the 32-bit word. -/
theorem wrap_toInt (t : BitVec 32) (h1 : -100000 ≤ t.toInt) (h2 : t.toInt < 0) :
    (t + 100000#32).toInt = t.toInt + 100000 := by
  rw [BitVec.toInt_add, show (100000#32 : BitVec 32).toInt = 100000 from by decide]
  show Int.bmod (t.toInt + 100000) 4294967296 = _
  unfold Int.bmod
  dsimp only
  omega

theorem wrapped_range (t : BitVec 32) (h1 : -100000 ≤ t.toInt) (h2 : t.toInt < 100000) :
    0 ≤ (Scalar.select (IntOp.cmpi .slt t 0#32) (IntOp.addi t 100000#32) t).toInt
    ∧ (Scalar.select (IntOp.cmpi .slt t 0#32) (IntOp.addi t 100000#32) t).toInt ≤ 99999 := by
  unfold Scalar.select
  by_cases hneg : t.toInt < 0
  · have hc : IntOp.cmpi .slt t 0#32 = 1#1 :=
      IntOp.cmpi_slt.2 (by rw [show (0#32 : BitVec 32).toInt = 0 from by decide]; exact hneg)
    rw [if_pos (show IntOp.cmpi .slt t 0#32 = 1 from hc)]
    have e : (IntOp.addi t 100000#32).toInt = t.toInt + 100000 := wrap_toInt t h1 hneg
    rw [e]; omega
  · have hc : ¬ IntOp.cmpi .slt t 0#32 = 1#1 := fun h => hneg (by
      have := IntOp.cmpi_slt.1 h
      rw [show (0#32 : BitVec 32).toInt = 0 from by decide] at this; exact this)
    rw [if_neg (show ¬ IntOp.cmpi .slt t 0#32 = 1 from hc)]; omega

/-- Every start row of admissible ids is inside the table. -/
theorem rows_range (tok : IVec S524288 32) (h : Admissible tok) (i : S524288x1.Idx) :
    0 ≤ (rows tok i).toInt ∧ (rows tok i).toInt ≤ 99999 := by
  unfold rows broadcastInDim
  show 0 ≤ (Scalar.select (IntOp.cmpi .slt (tok _) 0#32) (IntOp.addi (tok _) 100000#32) (tok _)).toInt
    ∧ (Scalar.select (IntOp.cmpi .slt (tok _) 0#32) (IntOp.addi (tok _) 100000#32) (tok _)).toInt ≤ 99999
  exact wrapped_range _ (h _).1 (h _).2

/-! ## The in-range test succeeds -/

/-- A left fold by `and` from 1 over words that are all 1 is 1. -/
theorem foldl_andi_one {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a List.mem_cons_self, show IntOp.andi (1#1 : BitVec 1) 1#1 = 1#1 from by decide]
    exact foldl_andi_one f l fun n hn => h n (List.mem_cons_of_mem _ hn)

/-- A reduction by `and` from 1 of an array of ones is 1 everywhere. -/
theorem reduce_andi_one {s t u : Shape} {axes : List (Fin s.rank)} (x : s.Idx → BitVec 1) (init : u.Idx → BitVec 1)
    (h : s.ReducesTo axes t) (hu : 0 < u.numel) (j : t.Idx) (hinit : init (Shape.Idx.first hu) = 1#1)
    (hx : ∀ i, x i = 1#1) : Host.reduce IntOp.andi x init h hu j = 1#1 := by
  rw [Host.reduce_eq_foldl, hinit]
  exact foldl_andi_one x _ fun n _ => hx n

theorem inRange_one (tok : IVec S524288 32) (h : Admissible tok) (e : S524288.Idx) : inRange tok e = 1#1 := by
  unfold inRange
  refine reduce_andi_one _ _ _ _ e rfl fun i => ?_
  have hr := rows_range tok h i
  show IntOp.andi (IntOp.cmpi .sge (rows tok i) 0#32) (IntOp.cmpi .sle (rows tok i) 99999#32) = 1#1
  refine IntOp.andi_eq_one.2 ⟨IntOp.cmpi_sge.2 ?_, IntOp.cmpi_sle.2 ?_⟩
  · rw [show (0#32 : BitVec 32).toInt = 0 from by decide]; exact hr.1
  · rw [show (99999#32 : BitVec 32).toInt = 99999 from by decide]; exact hr.2

/-! ## The same rows, the same means -/

/-- For admissible ids the kernel program's gathered rows are the reference's. -/
theorem taken_eq {F : FTy → Type} [FloatOps F] (emb : FVec F S100000x512 .f32) (tok : IVec S524288 32) (h : Admissible tok) :
    taken emb tok = Host.gather Cert.ReferenceIdeal.gather_S100000x512_S524288x1_S524288x512_1_0_n_n_0_1_1512 emb
      (Cert.ReferenceIdeal.Stages.rows tok) := by
  funext j
  unfold taken
  show Scalar.select (inRange tok _) (Host.gather gather_S100000x512_S524288x1_S524288x512_1_0_n_n_0_1_1512 emb (rows tok) j) _ = _
  rw [inRange_one tok h]
  unfold Scalar.select
  rw [if_pos (by decide : (1#1 : BitVec 1) = 1)]
  rfl

/-- The two programs take segment means the same way. -/
theorem pooledOf_eq {F : FTy → Type} [FloatOps F] (seg : IVec S524288 32) (g : FVec F S524288x512 .f32) :
    pooledOf seg g = Cert.ReferenceIdeal.Stages.pooledOf seg g := rfl

end Cert.Tokens

end
-- ==== Proof.Layers.lean ====
/-
  At the ideal values the kernel body's stored value is the reference's network applied to the same arrays.
  A change of float format is the identity there, so the narrowed operands are the operands. A matrix product
  accumulated into zero and the host's product are one sum over the contracted index; the body's column sums and
  the host's are one sum over the rows. A vector of 512 entries cast to one row and broadcast over 4096 rows, and
  the same vector broadcast in two steps, both read the vector at the column. With these the body's mean,
  deviations and inverse standard deviation are the reference's: the reference's variance carries a guard on
  its divisor 4096 − 0 being positive, which holds, and its divisor is 4096. The logistic function is
  1 / (1 + exp (−y)) by definition, the literal one being the number one.
-/
import proofs.«400265_j56075093017160_2_alg».proof.Proof.RefRun
import proofs.«400265_j56075093017160_2_alg».proof.Proof.KernelValue
import Idealize.ShloMosaic.PureOps.Ideal.Laws
import Idealize.ShloMosaic.Lib.Pipeline.Value
import Idealize.ShloMosaic.Lib.ValueIdx

noncomputable section

namespace Cert.Layers

open Idealize.ShloMosaic Idealize.ShloMosaic.ValueIdx
open Cert.KernelIdeal Cert.KernelIdeal.Gen Cert.KernelIdeal.Out

/-! ## Literals -/

theorem one_f32 : Ideal.ofBits .f32 0x3F800000#32 = 1 := by simp [Ideal.ofBits, Ideal.ieee, -EReal.coe_mul]; norm_num

theorem n4096_f32 : Ideal.ofBits .f32 0x45800000#32 = ((4096 : ℝ) : EReal) := by
  simp [Ideal.ofBits, Ideal.ieee, -EReal.coe_mul]; norm_num

/-! ## One row over all rows -/

/-- The column of a (row, column) index, as an index of a vector of 512 entries. -/
def col (j : S4096x512.Idx) : S512.Idx :=
  fun a => match a with | ⟨0, _⟩ => ⟨(j 1).val, by have h : (j 1).val < 512 := (j 1).isLt; exact h⟩

/-- The index (0, column) of the one-row array under a (row, column) index. -/
def row0 (j : S4096x512.Idx) : S1x512.Idx :=
  fun a => match a with
    | ⟨0, _⟩ => ⟨0, by show 0 < 1; omega⟩
    | ⟨1, _⟩ => ⟨(j 1).val, by have h : (j 1).val < 512 := (j 1).isLt; exact h⟩

/-- The body's row broadcast reads the vector at the column. -/
theorem krow_apply {F : FTy → Type} [FloatOps F] (v : FVec F S512 .f32) (j : S4096x512.Idx) : krow v j = v (col j) := by
  unfold krow
  refine (broadcastTo_apply _ _ j (row0 j) (fun a => match a with
    | ⟨0, _⟩ => by show 0 = (if (1 : Nat) = 1 then 0 else (j 0).val); rw [if_pos rfl]
    | ⟨1, _⟩ => by show (j 1).val = (if (512 : Nat) = 1 then 0 else (j 1).val); rw [if_neg (by decide)])).trans ?_
  exact shapeCast_apply _ _ (row0 j) (col j) (by
    rw [Shape.rowMajor_val_one, Shape.rowMajor_val_two]; show (j 1).val = 0 * 512 + (j 1).val; omega)

/-- The host's two-step row broadcast reads the vector at the column. -/
theorem rowsOf_apply {F : FTy → Type} [FloatOps F] (v : FVec F S512 .f32) (j : S4096x512.Idx) :
    Cert.ReferenceIdeal.Stages.rowsOf v j = v (col j) := by
  unfold Cert.ReferenceIdeal.Stages.rowsOf
  refine (broadcastInDim_apply _ _ _ j (row0 j) (fun a => match a with
    | ⟨0, _⟩ => by show 0 = (if (1 : Nat) = 1 then 0 else (j 0).val); rw [if_pos rfl]
    | ⟨1, _⟩ => by show (j 1).val = (if (512 : Nat) = 1 then 0 else (j 1).val); rw [if_neg (by decide)])).trans ?_
  exact broadcastInDim_apply _ _ v (row0 j) (col j) (fun a => match a with
    | ⟨0, _⟩ => by show (j 1).val = (if (512 : Nat) = 1 then 0 else (j 1).val); rw [if_neg (by decide)])

theorem krow_eq {F : FTy → Type} [FloatOps F] (v : FVec F S512 .f32) : krow v = Cert.ReferenceIdeal.Stages.rowsOf v :=
  funext fun j => (krow_apply v j).trans (rowsOf_apply v j).symm

/-! ## Sums -/

/-- The body's column sums are the host's: both are the sum over the 4096 rows. -/
theorem ksum_eq (X : FVec Ideal S4096x512 .f32) : ksum X = Cert.ReferenceIdeal.Stages.colSum X := by
  funext c
  refine (Ideal.multiReduction_add_single (φ := .f32) X 0x00000000#32 reduces_S4096x512_S512 (.inl rfl) rfl c).trans ?_
  symm
  show Ideal.hostReduceAdd Cert.ReferenceIdeal.Gen.reducesTo_S4096x512_S512_d0 X (Ideal.ofBits .f32 0x00000000#32) c = _
  rw [Ideal.hostReduceAdd_single _ reduces_S4096x512_S512, Ideal.ofBits_zero_f32, zero_add]

/-- A product of format-changed operands accumulated into zero is the host's product of the operands. -/
theorem matmul_eq {sl sr so : Shape} (d : DotDims sl sr so) (l : FVec Ideal sl .f32) (r : FVec Ideal sr .f32) :
    matmul d none (truncf .bf16 l bitsLt_bf16_f32) (truncf .bf16 r bitsLt_bf16_f32) (constant so .f32 0x00000000#32)
      = Host.dotGeneral d none l r := by
  funext j
  show FloatOps.matmul d none (truncf .bf16 l bitsLt_bf16_f32) (truncf .bf16 r bitsLt_bf16_f32) (constant so .f32 0x00000000#32) j
    = FloatOps.dotGeneral d none .single l r j
  rw [Ideal.matmul_constant_zero_apply, Ideal.dotGeneral_apply]
  rfl

/-! ## The layers -/

theorem kfc1_eq (P : FVec Ideal S4096x512 .f32) (W : FVec Ideal S512x512 .f32) (b1 : FVec Ideal S512 .f32) :
    kfc1 (truncf .bf16 P bitsLt_bf16_f32) (truncf .bf16 W bitsLt_bf16_f32) b1 = Cert.ReferenceIdeal.Stages.fc1 P W b1 := by
  unfold kfc1 Cert.ReferenceIdeal.Stages.fc1
  rw [shapeCast_self, shapeCast_self, krow_eq, matmul_eq]
  rfl

theorem kmean_eq (X : FVec Ideal S4096x512 .f32) :
    kmean X = Cert.ReferenceIdeal.Stages.rowsOf (Cert.ReferenceIdeal.Stages.colMean X) := by
  have e : kmean X = krow (Host.divf (ksum X)
      (broadcastInDim S512 ![] Cert.ReferenceIdeal.Gen.bcast_S_S512 (constant Cert.ReferenceIdeal.S_ .f32 0x45800000#32))) := rfl
  rw [e, ksum_eq, krow_eq]
  rfl

/-- The deviations the variance takes are the deviations from the column means. -/
theorem devs_eq {F : FTy → Type} [FloatOps F] (X : FVec F S4096x512 .f32) :
    Cert.ReferenceIdeal.Stages.devs X
      = subf X (Cert.ReferenceIdeal.Stages.rowsOf (Cert.ReferenceIdeal.Stages.colMean X)) := rfl

/-- The variance's divisor, 4096 minus no degrees of freedom, is 4096. -/
theorem varDen_eq : Cert.ReferenceIdeal.Stages.varDen (F := Ideal) = constant Cert.ReferenceIdeal.S_ .f32 0x45800000#32 := by
  funext i
  show Ideal.ofBits .f32 0x45800000#32 - ((((0#32 : BitVec 32).toInt : ℝ)) : EReal) = Ideal.ofBits .f32 0x45800000#32
  rw [show (0#32 : BitVec 32).toInt = 0 from by decide, Int.cast_zero, EReal.coe_zero, sub_zero]

/-- The guard holds, so the variance is the mean of the squared deviations. -/
theorem colVar_eq (X : FVec Ideal S4096x512 .f32) :
    Cert.ReferenceIdeal.Stages.colVar X
      = Host.divf (Cert.ReferenceIdeal.Stages.colSum (mulf (Cert.ReferenceIdeal.Stages.devs X) (Cert.ReferenceIdeal.Stages.devs X)))
          (broadcastInDim S512 ![] Cert.ReferenceIdeal.Gen.bcast_S_S512 (constant Cert.ReferenceIdeal.S_ .f32 0x45800000#32)) := by
  unfold Cert.ReferenceIdeal.Stages.colVar
  rw [varDen_eq]
  funext c
  have hpos : Ideal.cmp .ogt (Ideal.ofBits .f32 0x45800000#32) (Ideal.ofBits .f32 0x00000000#32) = 1#1 := by
    rw [n4096_f32, Ideal.ofBits_zero_f32]
    show BitVec.ofBool (decide ((0 : EReal) < ((4096 : ℝ) : EReal))) = 1#1
    rw [decide_eq_true (by exact_mod_cast (by norm_num : (0 : ℝ) < 4096))]
    rfl
  show Scalar.select (Ideal.cmp .ogt (Ideal.ofBits .f32 0x45800000#32) (Ideal.ofBits .f32 0x00000000#32)) _ _ = _
  rw [hpos]
  unfold Scalar.select
  rw [if_pos (by decide : (1#1 : BitVec 1) = 1)]

theorem kinv_eq (X : FVec Ideal S4096x512 .f32) :
    kinv (subf X (Cert.ReferenceIdeal.Stages.rowsOf (Cert.ReferenceIdeal.Stages.colMean X)))
      = Cert.ReferenceIdeal.Stages.rowsOf (Host.rsqrt (addf (Cert.ReferenceIdeal.Stages.colVar X)
          (broadcastInDim S512 ![] Cert.ReferenceIdeal.Gen.bcast_S_S512 (constant Cert.ReferenceIdeal.S_ .f32 0x3727C5AC#32)))) := by
  rw [colVar_eq, devs_eq, ← ksum_eq]
  generalize subf X (Cert.ReferenceIdeal.Stages.rowsOf (Cert.ReferenceIdeal.Stages.colMean X)) = D
  exact (show kinv D = krow (Host.rsqrt (addf (Host.divf (ksum (mulf D D))
      (broadcastInDim S512 ![] Cert.ReferenceIdeal.Gen.bcast_S_S512 (constant Cert.ReferenceIdeal.S_ .f32 0x45800000#32)))
      (broadcastInDim S512 ![] Cert.ReferenceIdeal.Gen.bcast_S_S512 (constant Cert.ReferenceIdeal.S_ .f32 0x3727C5AC#32)))) from rfl).trans
    (krow_eq _)

theorem knorm_eq (X : FVec Ideal S4096x512 .f32) (g be : FVec Ideal S512 .f32) :
    knorm X g be = Cert.ReferenceIdeal.Stages.rect (Cert.ReferenceIdeal.Stages.normed X g be) := by
  unfold knorm Cert.ReferenceIdeal.Stages.rect Cert.ReferenceIdeal.Stages.normed
  rw [kmean_eq, kinv_eq, krow_eq, krow_eq]
  rfl

theorem kfc2_eq (R : FVec Ideal S4096x512 .f32) (W : FVec Ideal S512x1 .f32) :
    kfc2 R (truncf .bf16 W bitsLt_bf16_f32) = Host.dotGeneral dot_S4096x512_S512x1_S4096x1_1_0_0_1_n_n none R W := by
  unfold kfc2
  rw [shapeCast_self, matmul_eq]

/-- The one index of a one-entry vector, and the one index of a 1 × 1 array. -/
def o1 : S1.Idx := fun a => match a with | ⟨0, _⟩ => ⟨0, by show 0 < 1; omega⟩
def o11 : S1x1.Idx := fun a => match a with | ⟨0, _⟩ => ⟨0, by show 0 < 1; omega⟩ | ⟨1, _⟩ => ⟨0, by show 0 < 1; omega⟩

/-- The one bias entry over all 4096 rows, either way. -/
theorem bias2_eq {F : FTy → Type} [FloatOps F] (b2 : FVec F S1 .f32) :
    broadcastTo S4096x1 (shapeCast S1x1 b2 shapeCasts_S1_S1x1) broadcasts_S1x1_S4096x1
      = broadcastInDim S4096x1 ![0, 1] Cert.ReferenceIdeal.Gen.bcast_S1x1_S4096x1_0_1
          (broadcastInDim S1x1 ![1] Cert.ReferenceIdeal.Gen.bcast_S1_S1x1_1 b2) := by
  funext j
  refine ((broadcastTo_apply _ _ j o11 (fun a => match a with
      | ⟨0, _⟩ => by show 0 = (if (1 : Nat) = 1 then 0 else (j 0).val); rw [if_pos rfl]
      | ⟨1, _⟩ => by show 0 = (if (1 : Nat) = 1 then 0 else (j 1).val); rw [if_pos rfl])).trans
    (shapeCast_apply _ _ o11 o1 (by rw [Shape.rowMajor_val_one, Shape.rowMajor_val_two]; show 0 = 0 * 1 + 0; omega))).trans ?_
  symm
  refine (broadcastInDim_apply _ _ _ j o11 (fun a => match a with
      | ⟨0, _⟩ => by show 0 = (if (1 : Nat) = 1 then 0 else (j 0).val); rw [if_pos rfl]
      | ⟨1, _⟩ => by show 0 = (if (1 : Nat) = 1 then 0 else (j 1).val); rw [if_pos rfl])).trans ?_
  exact broadcastInDim_apply _ _ b2 o11 o1 (fun a => match a with
      | ⟨0, _⟩ => by show 0 = (if (1 : Nat) = 1 then 0 else (o11 1).val); rw [if_pos rfl])

/-- The logistic function is 1 / (1 + exp (−y)). -/
theorem logistic_eq (y : FVec Ideal S4096x1 .f32) : logistic y = Cert.ReferenceIdeal.Stages.sigm y := by
  funext j
  show FloatOps.logistic (y j) = FloatOps.hostDivf (Ideal.ofBits .f32 0x3F800000#32)
    (FloatOps.addf (Ideal.ofBits .f32 0x3F800000#32) (FloatOps.hostUnary .exp (FloatOps.hostNegf (y j))))
  rw [one_f32]
  rfl

/-- The body's value of the narrowed arrays is the reference's network of the arrays. -/
theorem body_eq (P : FVec Ideal S4096x512 .f32) (W1t : FVec Ideal S512x512 .f32) (b1 g be : FVec Ideal S512 .f32)
    (W2t : FVec Ideal S512x1 .f32) (b2 : FVec Ideal S1 .f32) :
    body (truncf .bf16 P bitsLt_bf16_f32) (truncf .bf16 W1t bitsLt_bf16_f32) b1 g be (truncf .bf16 W2t bitsLt_bf16_f32) b2
      = Cert.ReferenceIdeal.Stages.mlp P W1t b1 g be W2t b2 := by
  unfold body Cert.ReferenceIdeal.Stages.mlp Cert.ReferenceIdeal.Stages.fc2
  rw [kfc1_eq, knorm_eq, kfc2_eq, bias2_eq, logistic_eq]
  rfl

end Cert.Layers

end
-- ==== Proof.lean ====
/-
  The certificate: a bag-of-words classifier. Both programs gather one embedding row per token from a 100000 × 512
  table, average the rows of each of 4096 sorted segments (an empty segment averages to zero), and apply a linear
  layer, batch normalisation over the 4096 samples with scale and shift, the rectifier, a second linear layer to one
  output and the logistic function. The kernel program does the gather and the averaging on the host and everything
  after it in one launch over a single grid point, on operands narrowed to a shorter float format; the reference
  does it all on the host.

  The precondition asks every float input to be finite and every token id to name a row of the table, from the front
  (0 … 99999) or from the end (-100000 … -1). Only the second part is used. The kernel program fills the row of an id
  outside that range with a not-a-number pattern, where the reference clamps the row number: on admissible ids the
  kernel program's range test succeeds everywhere and the two gathers agree (Tokens). Over the extended reals a
  change of float format is the identity, a matrix product accumulated into zero is the host's product, the two
  programs' column sums are one sum, their broadcasts of a row read the same entry, the reference's guarded variance
  is the plain mean of squared deviations because its divisor 4096 is positive, and the logistic function is
  1 / (1 + exp (−y)) (Layers). No law used moves a factor across a sum, so finiteness is never needed.

  The kernel programs' frames are the generated frame certificates. The reference's frame is its run with the result
  dropped (RefRun). The idealization rewrote nothing, so the preservation claim is trivial. The value claim sets
  the kernel program's run, whose output array is the body's value of the arrays the launch finds (KernelValue),
  beside the reference's run.
-/
import proofs.«400265_j56075093017160_2_alg».proof.Defs
import proofs.«400265_j56075093017160_2_alg».proof.Proof.Gen.Kernel
import proofs.«400265_j56075093017160_2_alg».proof.Proof.Gen.Kernel.Skeleton
import proofs.«400265_j56075093017160_2_alg».proof.Proof.Gen.Kernel.Launch
import proofs.«400265_j56075093017160_2_alg».proof.Proof.Gen.Kernel.Points
import proofs.«400265_j56075093017160_2_alg».proof.Proof.Gen.Kernel.Frame
import proofs.«400265_j56075093017160_2_alg».proof.Proof.Gen.KernelIdeal
import proofs.«400265_j56075093017160_2_alg».proof.Proof.Gen.KernelIdeal.Skeleton
import proofs.«400265_j56075093017160_2_alg».proof.Proof.Gen.KernelIdeal.Launch
import proofs.«400265_j56075093017160_2_alg».proof.Proof.Gen.KernelIdeal.Points
import proofs.«400265_j56075093017160_2_alg».proof.Proof.Gen.KernelIdeal.Frame
import proofs.«400265_j56075093017160_2_alg».proof.Proof.Gen.ReferenceIdeal
import proofs.«400265_j56075093017160_2_alg».proof.Proof.Gen.Pre_finite_inputs
import proofs.«400265_j56075093017160_2_alg».proof.Proof.RefRun
import proofs.«400265_j56075093017160_2_alg».proof.Proof.KernelValue
import proofs.«400265_j56075093017160_2_alg».proof.Proof.Tokens
import proofs.«400265_j56075093017160_2_alg».proof.Proof.Layers
import Idealize.ShloMosaic.Adequacy
import Idealize.ShloMosaic.Init

noncomputable section

namespace Cert.Proof

open Idealize.ShloMosaic Idealize.ShloMosaic.TcCoe Idealize.SL.Sem

/-- Under the precondition the kernel program's output array is the reference's function of the argument arrays:
    the ids are admissible, so the gathered rows and their segment means agree, and the body's value of the narrowed
    arrays is the reference's network of the arrays. -/
theorem result_eq (m : (ℓ : Loc Cert.KernelIdeal.nD Cert.KernelIdeal.τ Cert.KernelIdeal.sig) → Buf (Elt Ideal) ℓ)
    (c : Dev Cert.KernelIdeal.nD) (hpre : Cert.Pre_KernelIdeal m) :
    Cert.KernelIdeal.Out.result m c
      = Cert.ReferenceIdeal.Stages.out
          (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3))
          (m ((c.tc : Thread Cert.KernelIdeal.nD Cert.KernelIdeal.τ).loc Cert.KernelIdeal.main_arg4))
          (m ((c.tc : Thread Cert.KernelIdeal.nD Cert.KernelIdeal.τ).loc Cert.KernelIdeal.main_arg5))
          (m ((c.tc : Thread Cert.KernelIdeal.nD Cert.KernelIdeal.τ).loc Cert.KernelIdeal.main_arg6))
          (m ((c.tc : Thread Cert.KernelIdeal.nD Cert.KernelIdeal.τ).loc Cert.KernelIdeal.main_arg7))
          (m ((c.tc : Thread Cert.KernelIdeal.nD Cert.KernelIdeal.τ).loc Cert.KernelIdeal.main_arg8)) := by
  have hadm := Cert.Tokens.admissible_of_pre (F := Ideal) _ _ _ _ _ _ _ _ _ (hpre c)
  unfold Cert.KernelIdeal.Out.result Cert.KernelIdeal.Out.pooledIn Cert.KernelIdeal.Out.w1In Cert.KernelIdeal.Out.w2In
    Cert.ReferenceIdeal.Stages.out
  rw [Cert.Tokens.taken_eq _ _ hadm, Cert.Tokens.pooledOf_eq]
  exact Cert.Layers.body_eq _ _ _ _ _ _ _

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Stages.run (F := Ideal) m ρ)

/-- From memories that agree on the arguments both programs end with the same result array. -/
theorem algebraic : Cert.algebraic_KernelIdeal_ReferenceIdeal := by
  intro m ρ m' ρ' hpre hagree
  refine ⟨fun c => Cert.KernelIdeal.Out.result m c, Cert.KernelIdeal.Out.run (F := Ideal) m ρ, ?_⟩
  refine (θ_run Cert.ReferenceIdeal.defs _ _).mono (fun _ h c => ⟨(h c).1.trans ?_, (h c).2⟩)
    (Cert.ReferenceIdeal.Stages.run (F := Ideal) m' ρ')
  obtain ⟨e0, e1, e2, e3, e4, e5, e6, e7, e8⟩ := hagree c
  rw [e0, e1, e2, e3, e4, e5, e6, e7, e8]
  exact (result_eq m c hpre).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
